-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x3x448x448 : Shape := ⟨5, ![32, 4, 3, 448, 448]⟩
abbrev S_ : Shape := ⟨0, ![]⟩

class Facts : Prop where
  bcast_S_S32x4x3x448x448 : S_.BroadcastsInDim S32x4x3x448x448 (![] : Fin 0 → Fin S32x4x3x448x448.rank)
  reducesTo_S32x4x3x448x448_S_d0_1_2_3_4 : S32x4x3x448x448.ReducesTo [0, 1, 2, 3, 4] S_
  h_S_ : 0 < S_.numel

variable [Facts]

def fn {F : FTy → Type} [FloatOps F] (main_arg0 : FVec F S32x4x3x448x448 .f32) : IVec S_ 1 :=
  let main_v0 : FVec F S32x4x3x448x448 .f32 := Host.absf main_arg0
  let main_cst : FVec F S_ .f32 := constant S_ .f32 0x7F800000#32
  let main_v1 : FVec F S32x4x3x448x448 .f32 := broadcastInDim S32x4x3x448x448 ![] bcast_S_S32x4x3x448x448 main_cst
  let main_v2 : IVec S32x4x3x448x448 1 := cmpf .olt main_v0 main_v1
  let main_c : IVec S_ 1 := constantI S_ 1 1#1
  let main_v3 : IVec S_ 1 := (fun x v => Host.reduce IntOp.andi x v reducesTo_S32x4x3x448x448_S_d0_1_2_3_4 h_S_) main_v2 main_c
  main_v3
-- ==== Kernel.lean ====
abbrev S32x4x3x448x448 : Shape := ⟨5, ![32, 4, 3, 448, 448]⟩
abbrev S32x4x784x768 : Shape := ⟨4, ![32, 4, 784, 768]⟩
abbrev S1x1x3x448x448 : Shape := ⟨5, ![1, 1, 3, 448, 448]⟩
abbrev S1x1x784x768 : Shape := ⟨4, ![1, 1, 784, 768]⟩
abbrev S1x1x3x16x448 : Shape := ⟨5, ![1, 1, 3, 16, 448]⟩
abbrev S3x16x448 : Shape := ⟨3, ![3, 16, 448]⟩
abbrev S3x16x28x16 : Shape := ⟨4, ![3, 16, 28, 16]⟩
abbrev S28x3x16x16 : Shape := ⟨4, ![28, 3, 16, 16]⟩
abbrev S28x768 : Shape := ⟨2, ![28, 768]⟩
abbrev S1x1x28x768 : Shape := ⟨4, ![1, 1, 28, 768]⟩
abbrev S32x3136x768 : Shape := ⟨3, ![32, 3136, 768]⟩
abbrev S3136 : Shape := ⟨1, ![3136]⟩
abbrev S_ : Shape := ⟨0, ![]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

abbrev nBuf : Space → Nat
  | .hbm => 92
  | .vmem => 4
  | .smem => 0
  | _ => 0

abbrev bufTy : (tb : Table) → Fin (tcTables nBuf tb) → BufTy
  | .hbm, ⟨0, _⟩ => ⟨S32x4x3x448x448, .f32⟩
  | .hbm, ⟨1, _⟩ => ⟨S32x4x784x768, .f32⟩
  | .hbm, ⟨2, _⟩ => ⟨S32x3136x768, .f32⟩
  | .hbm, ⟨3, _⟩ => ⟨S3136, .i32⟩
  | .hbm, ⟨4, _⟩ => ⟨S_, .i32⟩
  | .hbm, ⟨5, _⟩ => ⟨S_, .i32⟩
  | .hbm, ⟨6, _⟩ => ⟨S3136, .i32⟩
  | .hbm, ⟨7, _⟩ => ⟨S3136, .i32⟩
  | .hbm, ⟨8, _⟩ => ⟨S3136, .i32⟩
  | .hbm, ⟨9, _⟩ => ⟨S_, .i32⟩
  | .hbm, ⟨10, _⟩ => ⟨S3136, .i32⟩
  | .hbm, ⟨11, _⟩ => ⟨S3136, .i1⟩
  | .hbm, ⟨12, _⟩ => ⟨S3136, .i32⟩
  | .hbm, ⟨13, _⟩ => ⟨S3136, .i32⟩
  | .hbm, ⟨14, _⟩ => ⟨S_, .i32⟩
  | .hbm, ⟨15, _⟩ => ⟨S3136, .i32⟩
  | .hbm, ⟨16, _⟩ => ⟨S3136, .i1⟩
  | .hbm, ⟨17, _⟩ => ⟨S3136, .i1⟩
  | .hbm, ⟨18, _⟩ => ⟨S_, .i32⟩
  | .hbm, ⟨19, _⟩ => ⟨S3136, .i32⟩
  | .hbm, ⟨20, _⟩ => ⟨S3136, .i32⟩
  | .hbm, ⟨21, _⟩ => ⟨S3136, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S3136, .i32⟩
  | .hbm, ⟨29, _⟩ => ⟨S3136, .i32⟩
  | .hbm, ⟨30, _⟩ => ⟨S_, .i32⟩
  | .hbm, ⟨31, _⟩ => ⟨S3136, .i32⟩
  | .hbm, ⟨32, _⟩ => ⟨S3136, .i1⟩
  | .hbm, ⟨33, _⟩ => ⟨S_, .i32⟩
  | .hbm, ⟨34, _⟩ => ⟨S3136, .i32⟩
  | .hbm, ⟨35, _⟩ => ⟨S3136, .i1⟩
  | .hbm, ⟨36, _⟩ => ⟨S_, .i32⟩
  | .hbm, ⟨37, _⟩ => ⟨S_, .i1⟩
  | .hbm, ⟨38, _⟩ => ⟨S3136, .i1⟩
  | .hbm, ⟨39, _⟩ => ⟨S3136, .i1⟩
  | .hbm, ⟨40, _⟩ => ⟨S3136, .i1⟩
  | .hbm, ⟨41, _⟩ => ⟨S3136, .i32⟩
  | .hbm, ⟨42, _⟩ => ⟨S3136, .i32⟩
  | .hbm, ⟨43, _⟩ => ⟨S3136, .i32⟩
  | .hbm, ⟨44, _⟩ => ⟨S_, .i32⟩
  | .hbm, ⟨45, _⟩ => ⟨S_, .i32⟩
  | .hbm, ⟨46, _⟩ => ⟨S3136, .i32⟩
  | .hbm, ⟨47, _⟩ => ⟨S3136, .i32⟩
  | .hbm, ⟨48, _⟩ => ⟨S3136, .i32⟩
  | .hbm, ⟨49, _⟩ => ⟨S_, .i32⟩
  | .hbm, ⟨50, _⟩ => ⟨S3136, .i32⟩
  | .hbm, ⟨51, _⟩ => ⟨S3136, .i1⟩
  | .hbm, ⟨52, _⟩ => ⟨S3136, .i32⟩
  | .hbm, ⟨53, _⟩ => ⟨S3136, .i32⟩
  | .hbm, ⟨54, _⟩ => ⟨S_, .i32⟩
  | .hbm, ⟨55, _⟩ => ⟨S3136, .i32⟩
  | .hbm, ⟨56, _⟩ => ⟨S3136, .i1⟩
  | .hbm, ⟨57, _⟩ => ⟨S3136, .i1⟩
  | .hbm, ⟨58, _⟩ => ⟨S_, .i32⟩
  | .hbm, ⟨59, _⟩ => ⟨S3136, .i32⟩
  | .hbm, ⟨60, _⟩ => ⟨S3136, .i32⟩
  | .hbm, ⟨61, _⟩ => ⟨S3136, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S3136, .i32⟩
  | .hbm, ⟨69, _⟩ => ⟨S3136, .i32⟩
  | .hbm, ⟨70, _⟩ => ⟨S_, .i32⟩
  | .hbm, ⟨71, _⟩ => ⟨S3136, .i32⟩
  | .hbm, ⟨72, _⟩ => ⟨S3136, .i1⟩
  | .hbm, ⟨73, _⟩ => ⟨S_, .i32⟩
  | .hbm, ⟨74, _⟩ => ⟨S3136, .i32⟩
  | .hbm, ⟨75, _⟩ => ⟨S3136, .i1⟩
  | .hbm, ⟨76, _⟩ => ⟨S_, .i32⟩
  | .hbm, ⟨77, _⟩ => ⟨S_, .i1⟩
  | .hbm, ⟨78, _⟩ => ⟨S3136, .i1⟩
  | .hbm, ⟨79, _⟩ => ⟨S3136, .i1⟩
  | .hbm, ⟨80, _⟩ => ⟨S3136, .i1⟩
  | .hbm, ⟨81, _⟩ => ⟨S3136, .i32⟩
  | .hbm, ⟨82, _⟩ => ⟨S3136, .i32⟩
  | .hbm, ⟨83, _⟩ => ⟨S3136, .i32⟩
  | .hbm, ⟨84, _⟩ => ⟨S3136x1, .i32⟩
  | .hbm, ⟨85, _⟩ => ⟨S3136x1, .i32⟩
  | .hbm, ⟨86, _⟩ => ⟨S3136x1, .i32⟩
  | .hbm, ⟨87, _⟩ => ⟨S3136x3, .i32⟩
  | .hbm, ⟨88, _⟩ => ⟨S1x3136x3, .i32⟩
  | .hbm, ⟨89, _⟩ => ⟨S32x3136x3, .i32⟩
  | .hbm, ⟨90, _⟩ => ⟨S_, .f32⟩
  | .hbm, ⟨91, _⟩ => ⟨S32x3136, .f32⟩
  | .local _ .vmem, ⟨0, _⟩ => ⟨S1x1x3x448x448, .f32⟩
  | .local _ .vmem, ⟨1, _⟩ => ⟨S1x1x3x448x448, .f32⟩
  | .local _ .vmem, ⟨2, _⟩ => ⟨S1x1x784x768, .f32⟩
  | .local _ .vmem, ⟨3, _⟩ => ⟨S1x1x784x768, .f32⟩
  | _, _ => ⟨S32x4x3x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v4 : Ref sig .tc := ⟨.hbm, 43, rfl⟩
abbrev main_c_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v5 : Ref sig .tc := ⟨.hbm, 61, rfl⟩
abbrev main_c_2 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_c_1 : Ref sig .tc := ⟨.hbm, 70, rfl⟩
abbrev main_call3_v5 : Ref sig .tc := ⟨.hbm, 71, rfl⟩
abbrev main_call3_v6 : Ref sig .tc := ⟨.hbm, 72, rfl⟩
abbrev main_call3_c_2 : Ref sig .tc := ⟨.hbm, 73, rfl⟩
abbrev main_call3_v7 : Ref sig .tc := ⟨.hbm, 74, rfl⟩
abbrev main_call3_v8 : Ref sig .tc := ⟨.hbm, 75, rfl⟩
abbrev main_call3_c_3 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_v6 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_cst : Ref sig .tc := ⟨.hbm, 90, rfl⟩
abbrev main_v13 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x3x448x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x784x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x3x448x448_S1x1x3x16x448_0_0_0_0_0 : ∀ a, (![0, 0, 0, 0, 0] : Fin 5 → Nat) a + S1x1x3x16x448.size a ≤ S1x1x3x448x448.size a
  h_S1x1x3x16x448 : 0 < S1x1x3x16x448.numel
  shapeCasts_S1x1x3x16x448_S3x16x448 : S1x1x3x16x448.ShapeCasts S3x16x448
  shapeCasts_S3x16x448_S3x16x28x16 : S3x16x448.ShapeCasts S3x16x28x16
  transposes_S3x16x28x16_p2_0_1_3_S28x3x16x16 : S3x16x28x16.Transposes [2, 0, 1, 3] S28x3x16x16
  shapeCasts_S28x3x16x16_S28x768 : S28x3x16x16.ShapeCasts S28x768
  inb_S1x1x784x768_S1x1x28x768_0_0_0_0 : ∀ a, (![0, 0, 0, 0] : Fin 4 → Nat) a + S1x1x28x768.size a ≤ S1x1x784x768.size a
  h_S1x1x28x768 : 0 < S1x1x28x768.numel
  shapeCasts_S1x1x28x768_S28x768 : S1x1x28x768.ShapeCasts S28x768
  shapeCasts_S28x768_S1x1x28x768 : S28x768.ShapeCasts S1x1x28x768
  inb_S1x1x3x448x448_S1x1x3x16x448_0_0_0_16_0 : ∀ a, (![0, 0, 0, 16, 0] : Fin 5 → Nat) a + S1x1x3x16x448.size a ≤ S1x1x3x448x448.size a
  inb_S1x1x784x768_S1x1x28x768_0_0_28_0 : ∀ a, (![0, 0, 28, 0] : Fin 4 → Nat) a + S1x1x28x768.size a ≤ S1x1x784x768.size a
  inb_S1x1x3x448x448_S1x1x3x16x448_0_0_0_32_0 : ∀ a, (![0, 0, 0, 32, 0] : Fin 5 → Nat) a + S1x1x3x16x448.size a ≤ S1x1x3x448x448.size a
  inb_S1x1x784x768_S1x1x28x768_0_0_56_0 : ∀ a, (![0, 0, 56, 0] : Fin 4 → Nat) a + S1x1x28x768.size a ≤ S1x1x784x768.size a
  inb_S1x1x3x448x448_S1x1x3x16x448_0_0_0_48_0 : ∀ a, (![0, 0, 0, 48, 0] : Fin 5 → Nat) a + S1x1x3x16x448.size a ≤ S1x1x3x448x448.size a
  inb_S1x1x784x768_S1x1x28x768_0_0_84_0 : ∀ a, (![0, 0, 84, 0] : Fin 4 → Nat) a + S1x1x28x768.size a ≤ S1x1x784x768.size a
  inb_S1x1x3x448x448_S1x1x3x16x448_0_0_0_64_0 : ∀ a, (![0, 0, 0, 64, 0] : Fin 5 → Nat) a + S1x1x3x16x448.size a ≤ S1x1x3x448x448.size a
  inb_S1x1x784x768_S1x1x28x768_0_0_112_0 : ∀ a, (![0, 0, 112, 0] : Fin 4 → Nat) a + S1x1x28x768.size a ≤ S1x1x784x768.size a
  inb_S1x1x3x448x448_S1x1x3x16x448_0_0_0_80_0 : ∀ a, (![0, 0, 0, 80, 0] : Fin 5 → Nat) a + S1x1x3x16x448.size a ≤ S1x1x3x448x448.size a
  inb_S1x1x784x768_S1x1x28x768_0_0_140_0 : ∀ a, (![0, 0, 140, 0] : Fin 4 → Nat) a + S1x1x28x768.size a ≤ S1x1x784x768.size a
  inb_S1x1x3x448x448_S1x1x3x16x448_0_0_0_96_0 : ∀ a, (![0, 0, 0, 96, 0] : Fin 5 → Nat) a + S1x1x3x16x448.size a ≤ S1x1x3x448x448.size a
  inb_S1x1x784x768_S1x1x28x768_0_0_168_0 : ∀ a, (![0, 0, 168, 0] : Fin 4 → Nat) a + S1x1x28x768.size a ≤ S1x1x784x768.size a
  inb_S1x1x3x448x448_S1x1x3x16x448_0_0_0_112_0 : ∀ a, (![0, 0, 0, 112, 0] : Fin 5 → Nat) a + S1x1x3x16x448.size a ≤ S1x1x3x448x448.size a
  inb_S1x1x784x768_S1x1x28x768_0_0_196_0 : ∀ a, (![0, 0, 196, 0] : Fin 4 → Nat) a + S1x1x28x768.size a ≤ S1x1x784x768.size a
  inb_S1x1x3x448x448_S1x1x3x16x448_0_0_0_128_0 : ∀ a, (![0, 0, 0, 128, 0] : Fin 5 → Nat) a + S1x1x3x16x448.size a ≤ S1x1x3x448x448.size a
  inb_S1x1x784x768_S1x1x28x768_0_0_224_0 : ∀ a, (![0, 0, 224, 0] : Fin 4 → Nat) a + S1x1x28x768.size a ≤ S1x1x784x768.size a
  inb_S1x1x3x448x448_S1x1x3x16x448_0_0_0_144_0 : ∀ a, (![0, 0, 0, 144, 0] : Fin 5 → Nat) a + S1x1x3x16x448.size a ≤ S1x1x3x448x448.size a
  inb_S1x1x784x768_S1x1x28x768_0_0_252_0 : ∀ a, (![0, 0, 252, 0] : Fin 4 → Nat) a + S1x1x28x768.size a ≤ S1x1x784x768.size a
  inb_S1x1x3x448x448_S1x1x3x16x448_0_0_0_160_0 : ∀ a, (![0, 0, 0, 160, 0] : Fin 5 → Nat) a + S1x1x3x16x448.size a ≤ S1x1x3x448x448.size a
  inb_S1x1x784x768_S1x1x28x768_0_0_280_0 : ∀ a, (![0, 0, 280, 0] : Fin 4 → Nat) a + S1x1x28x768.size a ≤ S1x1x784x768.size a
  inb_S1x1x3x448x448_S1x1x3x16x448_0_0_0_176_0 : ∀ a, (![0, 0, 0, 176, 0] : Fin 5 → Nat) a + S1x1x3x16x448.size a ≤ S1x1x3x448x448.size a
  inb_S1x1x784x768_S1x1x28x768_0_0_308_0 : ∀ a, (![0, 0, 308, 0] : Fin 4 → Nat) a + S1x1x28x768.size a ≤ S1x1x784x768.size a
  inb_S1x1x3x448x448_S1x1x3x16x448_0_0_0_192_0 : ∀ a, (![0, 0, 0, 192, 0] : Fin 5 → Nat) a + S1x1x3x16x448.size a ≤ S1x1x3x448x448.size a
  inb_S1x1x784x768_S1x1x28x768_0_0_336_0 : ∀ a, (![0, 0, 336, 0] : Fin 4 → Nat) a + S1x1x28x768.size a ≤ S1x1x784x768.size a
  inb_S1x1x3x448x448_S1x1x3x16x448_0_0_0_208_0 : ∀ a, (![0, 0, 0, 208, 0] : Fin 5 → Nat) a + S1x1x3x16x448.size a ≤ S1x1x3x448x448.size a
  inb_S1x1x784x768_S1x1x28x768_0_0_364_0 : ∀ a, (![0, 0, 364, 0] : Fin 4 → Nat) a + S1x1x28x768.size a ≤ S1x1x784x768.size a
  inb_S1x1x3x448x448_S1x1x3x16x448_0_0_0_224_0 : ∀ a, (![0, 0, 0, 224, 0] : Fin 5 → Nat) a + S1x1x3x16x448.size a ≤ S1x1x3x448x448.size a
  inb_S1x1x784x768_S1x1x28x768_0_0_392_0 : ∀ a, (![0, 0, 392, 0] : Fin 4 → Nat) a + S1x1x28x768.size a ≤ S1x1x784x768.size a
  inb_S1x1x3x448x448_S1x1x3x16x448_0_0_0_240_0 : ∀ a, (![0, 0, 0, 240, 0] : Fin 5 → Nat) a + S1x1x3x16x448.size a ≤ S1x1x3x448x448.size a
  inb_S1x1x784x768_S1x1x28x768_0_0_420_0 : ∀ a, (![0, 0, 420, 0] : Fin 4 → Nat) a + S1x1x28x768.size a ≤ S1x1x784x768.size a
  inb_S1x1x3x448x448_S1x1x3x16x448_0_0_0_256_0 : ∀ a, (![0, 0, 0, 256, 0] : Fin 5 → Nat) a + S1x1x3x16x448.size a ≤ S1x1x3x448x448.size a
  inb_S1x1x784x768_S1x1x28x768_0_0_448_0 : ∀ a, (![0, 0, 448, 0] : Fin 4 → Nat) a + S1x1x28x768.size a ≤ S1x1x784x768.size a
  inb_S1x1x3x448x448_S1x1x3x16x448_0_0_0_272_0 : ∀ a, (![0, 0, 0, 272, 0] : Fin 5 → Nat) a + S1x1x3x16x448.size a ≤ S1x1x3x448x448.size a
  inb_S1x1x784x768_S1x1x28x768_0_0_476_0 : ∀ a, (![0, 0, 476, 0] : Fin 4 → Nat) a + S1x1x28x768.size a ≤ S1x1x784x768.size a
  inb_S1x1x3x448x448_S1x1x3x16x448_0_0_0_288_0 : ∀ a, (![0, 0, 0, 288, 0] : Fin 5 → Nat) a + S1x1x3x16x448.size a ≤ S1x1x3x448x448.size a
  inb_S1x1x784x768_S1x1x28x768_0_0_504_0 : ∀ a, (![0, 0, 504, 0] : Fin 4 → Nat) a + S1x1x28x768.size a ≤ S1x1x784x768.size a
  inb_S1x1x3x448x448_S1x1x3x16x448_0_0_0_304_0 : ∀ a, (![0, 0, 0, 304, 0] : Fin 5 → Nat) a + S1x1x3x16x448.size a ≤ S1x1x3x448x448.size a
  inb_S1x1x784x768_S1x1x28x768_0_0_532_0 : ∀ a, (![0, 0, 532, 0] : Fin 4 → Nat) a + S1x1x28x768.size a ≤ S1x1x784x768.size a
  inb_S1x1x3x448x448_S1x1x3x16x448_0_0_0_320_0 : ∀ a, (![0, 0, 0, 320, 0] : Fin 5 → Nat) a + S1x1x3x16x448.size a ≤ S1x1x3x448x448.size a
  inb_S1x1x784x768_S1x1x28x768_0_0_560_0 : ∀ a, (![0, 0, 560, 0] : Fin 4 → Nat) a + S1x1x28x768.size a ≤ S1x1x784x768.size a
  inb_S1x1x3x448x448_S1x1x3x16x448_0_0_0_336_0 : ∀ a, (![0, 0, 0, 336, 0] : Fin 5 → Nat) a + S1x1x3x16x448.size a ≤ S1x1x3x448x448.size a
  inb_S1x1x784x768_S1x1x28x768_0_0_588_0 : ∀ a, (![0, 0, 588, 0] : Fin 4 → Nat) a + S1x1x28x768.size a ≤ S1x1x784x768.size a
  inb_S1x1x3x448x448_S1x1x3x16x448_0_0_0_352_0 : ∀ a, (![0, 0, 0, 352, 0] : Fin 5 → Nat) a + S1x1x3x16x448.size a ≤ S1x1x3x448x448.size a
  inb_S1x1x784x768_S1x1x28x768_0_0_616_0 : ∀ a, (![0, 0, 616, 0] : Fin 4 → Nat) a + S1x1x28x768.size a ≤ S1x1x784x768.size a
  inb_S1x1x3x448x448_S1x1x3x16x448_0_0_0_368_0 : ∀ a, (![0, 0, 0, 368, 0] : Fin 5 → Nat) a + S1x1x3x16x448.size a ≤ S1x1x3x448x448.size a
  inb_S1x1x784x768_S1x1x28x768_0_0_644_0 : ∀ a, (![0, 0, 644, 0] : Fin 4 → Nat) a + S1x1x28x768.size a ≤ S1x1x784x768.size a
  inb_S1x1x3x448x448_S1x1x3x16x448_0_0_0_384_0 : ∀ a, (![0, 0, 0, 384, 0] : Fin 5 → Nat) a + S1x1x3x16x448.size a ≤ S1x1x3x448x448.size a
  inb_S1x1x784x768_S1x1x28x768_0_0_672_0 : ∀ a, (![0, 0, 672, 0] : Fin 4 → Nat) a + S1x1x28x768.size a ≤ S1x1x784x768.size a
  inb_S1x1x3x448x448_S1x1x3x16x448_0_0_0_400_0 : ∀ a, (![0, 0, 0, 400, 0] : Fin 5 → Nat) a + S1x1x3x16x448.size a ≤ S1x1x3x448x448.size a
  inb_S1x1x784x768_S1x1x28x768_0_0_700_0 : ∀ a, (![0, 0, 700, 0] : Fin 4 → Nat) a + S1x1x28x768.size a ≤ S1x1x784x768.size a
  inb_S1x1x3x448x448_S1x1x3x16x448_0_0_0_416_0 : ∀ a, (![0, 0, 0, 416, 0] : Fin 5 → Nat) a + S1x1x3x16x448.size a ≤ S1x1x3x448x448.size a
  inb_S1x1x784x768_S1x1x28x768_0_0_728_0 : ∀ a, (![0, 0, 728, 0] : Fin 4 → Nat) a + S1x1x28x768.size a ≤ S1x1x784x768.size a
  inb_S1x1x3x448x448_S1x1x3x16x448_0_0_0_432_0 : ∀ a, (![0, 0, 0, 432, 0] : Fin 5 → Nat) a + S1x1x3x16x448.size a ≤ S1x1x3x448x448.size a
  inb_S1x1x784x768_S1x1x28x768_0_0_756_0 : ∀ a, (![0, 0, 756, 0] : Fin 4 → Nat) a + S1x1x28x768.size a ≤ S1x1x784x768.size a
  shapeCasts_S32x4x784x768_S32x3136x768 : S32x4x784x768.ShapeCasts S32x3136x768
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x1_S3136x3_d1 : Shape.Concatenates [S3136x1, S3136x1, S3136x1] S3136x3 1
  bcast_S3136x3_S1x3136x3_1_2 : S3136x3.BroadcastsInDim S1x3136x3 (![1, 2] : Fin 2 → Fin S1x3136x3.rank)
  bcast_S1x3136x3_S32x3136x3_0_1_2 : S1x3136x3.BroadcastsInDim S32x3136x3 (![0, 1, 2] : Fin 3 → Fin S32x3136x3.rank)
  bcast_S_S32x3136 : S_.BroadcastsInDim S32x3136 (![] : Fin 0 → Fin S32x3136.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3x448x448.size a ≤ S32x4x3x448x448.size a
  hwx0_0 : ∀ i : grid0.Coords, EltTy.bits .f32 = 32 ∨ (Rect.block (s := S32x4x3x448x448) S1x1x3x448x448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x784x768.size a ≤ S32x4x784x768.size a
  hwx0_1 : ∀ i : grid0.Coords, EltTy.bits .f32 = 32 ∨ (Rect.block (s := S32x4x784x768) S1x1x784x768.size (cc0_transform_1 i) (hinb0_1 i)).WholeWords (EltTy.packing .f32)

variable [Facts₀]

abbrev win0_0 : Pipeline.Window sig grid0 :=
  Pipeline.Window.ofSpec (Memref.whole main_arg0) S1x1x3x448x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x784x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4x3x448x448 : Shape := ⟨5, ![32, 4, 3, 448, 448]⟩
abbrev S32x4x3x28x16x28x16 : Shape := ⟨7, ![32, 4, 3, 28, 16, 28, 16]⟩
abbrev S32x4x28x28x3x16x16 : Shape := ⟨7, ![32, 4, 28, 28, 3, 16, 16]⟩
abbrev S32x3136x768 : Shape := ⟨3, ![32, 3136, 768]⟩
abbrev S3136 : Shape := ⟨1, ![3136]⟩
abbrev S_ : Shape := ⟨0, ![]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

abbrev nBuf : Space → Nat
  | .hbm => 93
  | .vmem => 0
  | .smem => 0
  | _ => 0

abbrev bufTy : (tb : Table) → Fin (tcTables nBuf tb) → BufTy
  | .hbm, ⟨0, _⟩ => ⟨S32x4x3x448x448, .f32⟩
  | .hbm, ⟨1, _⟩ => ⟨S32x4x3x28x16x28x16, .f32⟩
  | .hbm, ⟨2, _⟩ => ⟨S32x4x28x28x3x16x16, .f32⟩
  | .hbm, ⟨3, _⟩ => ⟨S32x3136x768, .f32⟩
  | .hbm, ⟨4, _⟩ => ⟨S3136, .i32⟩
  | .hbm, ⟨5, _⟩ => ⟨S_, .i32⟩
  | .hbm, ⟨6, _⟩ => ⟨S_, .i32⟩
  | .hbm, ⟨7, _⟩ => ⟨S3136, .i32⟩
  | .hbm, ⟨8, _⟩ => ⟨S3136, .i32⟩
  | .hbm, ⟨9, _⟩ => ⟨S3136, .i32⟩
  | .hbm, ⟨10, _⟩ => ⟨S_, .i32⟩
  | .hbm, ⟨11, _⟩ => ⟨S3136, .i32⟩
  | .hbm, ⟨12, _⟩ => ⟨S3136, .i1⟩
  | .hbm, ⟨13, _⟩ => ⟨S3136, .i32⟩
  | .hbm, ⟨14, _⟩ => ⟨S3136, .i32⟩
  | .hbm, ⟨15, _⟩ => ⟨S_, .i32⟩
  | .hbm, ⟨16, _⟩ => ⟨S3136, .i32⟩
  | .hbm, ⟨17, _⟩ => ⟨S3136, .i1⟩
  | .hbm, ⟨18, _⟩ => ⟨S3136, .i1⟩
  | .hbm, ⟨19, _⟩ => ⟨S_, .i32⟩
  | .hbm, ⟨20, _⟩ => ⟨S3136, .i32⟩
  | .hbm, ⟨21, _⟩ => ⟨S3136, .i32⟩
  | .hbm, ⟨22, _⟩ => ⟨S3136, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S3136, .i32⟩
  | .hbm, ⟨30, _⟩ => ⟨S3136, .i32⟩
  | .hbm, ⟨31, _⟩ => ⟨S_, .i32⟩
  | .hbm, ⟨32, _⟩ => ⟨S3136, .i32⟩
  | .hbm, ⟨33, _⟩ => ⟨S3136, .i1⟩
  | .hbm, ⟨34, _⟩ => ⟨S_, .i32⟩
  | .hbm, ⟨35, _⟩ => ⟨S3136, .i32⟩
  | .hbm, ⟨36, _⟩ => ⟨S3136, .i1⟩
  | .hbm, ⟨37, _⟩ => ⟨S_, .i32⟩
  | .hbm, ⟨38, _⟩ => ⟨S_, .i1⟩
  | .hbm, ⟨39, _⟩ => ⟨S3136, .i1⟩
  | .hbm, ⟨40, _⟩ => ⟨S3136, .i1⟩
  | .hbm, ⟨41, _⟩ => ⟨S3136, .i1⟩
  | .hbm, ⟨42, _⟩ => ⟨S3136, .i32⟩
  | .hbm, ⟨43, _⟩ => ⟨S3136, .i32⟩
  | .hbm, ⟨44, _⟩ => ⟨S3136, .i32⟩
  | .hbm, ⟨45, _⟩ => ⟨S_, .i32⟩
  | .hbm, ⟨46, _⟩ => ⟨S_, .i32⟩
  | .hbm, ⟨47, _⟩ => ⟨S3136, .i32⟩
  | .hbm, ⟨48, _⟩ => ⟨S3136, .i32⟩
  | .hbm, ⟨49, _⟩ => ⟨S3136, .i32⟩
  | .hbm, ⟨50, _⟩ => ⟨S_, .i32⟩
  | .hbm, ⟨51, _⟩ => ⟨S3136, .i32⟩
  | .hbm, ⟨52, _⟩ => ⟨S3136, .i1⟩
  | .hbm, ⟨53, _⟩ => ⟨S3136, .i32⟩
  | .hbm, ⟨54, _⟩ => ⟨S3136, .i32⟩
  | .hbm, ⟨55, _⟩ => ⟨S_, .i32⟩
  | .hbm, ⟨56, _⟩ => ⟨S3136, .i32⟩
  | .hbm, ⟨57, _⟩ => ⟨S3136, .i1⟩
  | .hbm, ⟨58, _⟩ => ⟨S3136, .i1⟩
  | .hbm, ⟨59, _⟩ => ⟨S_, .i32⟩
  | .hbm, ⟨60, _⟩ => ⟨S3136, .i32⟩
  | .hbm, ⟨61, _⟩ => ⟨S3136, .i32⟩
  | .hbm, ⟨62, _⟩ => ⟨S3136, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S3136, .i32⟩
  | .hbm, ⟨70, _⟩ => ⟨S3136, .i32⟩
  | .hbm, ⟨71, _⟩ => ⟨S_, .i32⟩
  | .hbm, ⟨72, _⟩ => ⟨S3136, .i32⟩
  | .hbm, ⟨73, _⟩ => ⟨S3136, .i1⟩
  | .hbm, ⟨74, _⟩ => ⟨S_, .i32⟩
  | .hbm, ⟨75, _⟩ => ⟨S3136, .i32⟩
  | .hbm, ⟨76, _⟩ => ⟨S3136, .i1⟩
  | .hbm, ⟨77, _⟩ => ⟨S_, .i32⟩
  | .hbm, ⟨78, _⟩ => ⟨S_, .i1⟩
  | .hbm, ⟨79, _⟩ => ⟨S3136, .i1⟩
  | .hbm, ⟨80, _⟩ => ⟨S3136, .i1⟩
  | .hbm, ⟨81, _⟩ => ⟨S3136, .i1⟩
  | .hbm, ⟨82, _⟩ => ⟨S3136, .i32⟩
  | .hbm, ⟨83, _⟩ => ⟨S3136, .i32⟩
  | .hbm, ⟨84, _⟩ => ⟨S3136, .i32⟩
  | .hbm, ⟨85, _⟩ => ⟨S3136x1, .i32⟩
  | .hbm, ⟨86, _⟩ => ⟨S3136x1, .i32⟩
  | .hbm, ⟨87, _⟩ => ⟨S3136x1, .i32⟩
  | .hbm, ⟨88, _⟩ => ⟨S3136x3, .i32⟩
  | .hbm, ⟨89, _⟩ => ⟨S1x3136x3, .i32⟩
  | .hbm, ⟨90, _⟩ => ⟨S32x3136x3, .i32⟩
  | .hbm, ⟨91, _⟩ => ⟨S_, .f32⟩
  | .hbm, ⟨92, _⟩ => ⟨S32x3136, .f32⟩
  | _, _ => ⟨S32x4x3x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v5 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v6 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_cst : Ref sig .tc := ⟨.hbm, 91, rfl⟩
abbrev main_v14 : Ref sig .tc := ⟨.hbm, 92, rfl⟩

abbrev nD : Nat := 1
abbrev τ : Topo := Topo.v7x

variable {F : FTy → Type} [FloatOps F]

class Facts₀ : Prop where
  shapeCasts_S32x4x3x448x448_S32x4x3x28x16x28x16 : S32x4x3x448x448.ShapeCasts S32x4x3x28x16x28x16
  transposes_S32x4x3x28x16x28x16_S32x4x28x28x3x16x16_0_1_3_5_2_4_6 : S32x4x3x28x16x28x16.Transposes [0, 1, 3, 5, 2, 4, 6] S32x4x28x28x3x16x16
  shapeCasts_S32x4x28x28x3x16x16_S32x3136x768 : S32x4x28x28x3x16x16.ShapeCasts S32x3136x768
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x1_S3136x3_d1 : Shape.Concatenates [S3136x1, S3136x1, S3136x1] S3136x3 1
  bcast_S3136x3_S1x3136x3_1_2 : S3136x3.BroadcastsInDim S1x3136x3 (![1, 2] : Fin 2 → Fin S1x3136x3.rank)
  bcast_S1x3136x3_S32x3136x3_0_1_2 : S1x3136x3.BroadcastsInDim S32x3136x3 (![0, 1, 2] : Fin 3 → Fin S32x3136x3.rank)
  bcast_S_S32x3136 : S_.BroadcastsInDim S32x3136 (![] : Fin 0 → Fin S32x3136.rank)

variable [Facts₀]

class Facts : Prop extends Facts₀ where

variable [Facts]
-- ==== Proof.HostSideK.lean ====
/-
  The host side of the kernel program's frame, at any float family: the program is one kernel region followed by ninety
  host operations (a reshape of the kernel's result, then integer index arithmetic and two broadcasts). Stated here:
  the program as "region, then the later lines"; that those lines stay within the unscoped buffers, allocate nothing and
  never write an array the region stages; that the argument array is found, and left, as launched; and the block of the
  argument array a grid point reads.
-/
import proofs.«119378_j75084618268853_1_alg».proof.Proof.Gen.Kernel.Launch
import proofs.«119378_j75084618268853_1_alg».proof.Proof.Gen.Kernel.Skeleton
import proofs.«119378_j75084618268853_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: nothing runs before it, so the launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  all_goals
    revert op
    refine List.forall_iff_forall_mem.mp ?_
    simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

end Cert.Kernel.Hand

end
-- ==== Proof.BodyK.lean ====
/-
  The kernel body at one grid point, at any float family. The body walks the 28 strips of 16 image rows of its input
  block [1,1,3,448,448]: it loads strip r (rows 16 r … 16 r + 15 of every channel), re-lays it as the 28 patches of that
  strip (a [28,768] matrix: patch column, then channel × row × column inside the patch) and stores it as rows
  28 r … 28 r + 27 of its output block [1,1,784,768]. The 28 stores tile the output block, so what the body leaves there
  is the canon of those stores over the input block, whatever the buffer held before.
-/
import proofs.«119378_j75084618268853_1_alg».proof.Proof.HostSideK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

/-! ## The strips read and the row blocks written -/

abbrev rI0 : Rect S1x1x3x448x448 := Rect.unit (s := S1x1x3x448x448) ![0, 0, 0, 0, 0] S1x1x3x16x448.size Facts₀.inb_S1x1x3x448x448_S1x1x3x16x448_0_0_0_0_0
abbrev rI1 : Rect S1x1x3x448x448 := Rect.unit (s := S1x1x3x448x448) ![0, 0, 0, 16, 0] S1x1x3x16x448.size Facts₀.inb_S1x1x3x448x448_S1x1x3x16x448_0_0_0_16_0
abbrev rI2 : Rect S1x1x3x448x448 := Rect.unit (s := S1x1x3x448x448) ![0, 0, 0, 32, 0] S1x1x3x16x448.size Facts₀.inb_S1x1x3x448x448_S1x1x3x16x448_0_0_0_32_0
abbrev rI3 : Rect S1x1x3x448x448 := Rect.unit (s := S1x1x3x448x448) ![0, 0, 0, 48, 0] S1x1x3x16x448.size Facts₀.inb_S1x1x3x448x448_S1x1x3x16x448_0_0_0_48_0
abbrev rI4 : Rect S1x1x3x448x448 := Rect.unit (s := S1x1x3x448x448) ![0, 0, 0, 64, 0] S1x1x3x16x448.size Facts₀.inb_S1x1x3x448x448_S1x1x3x16x448_0_0_0_64_0
abbrev rI5 : Rect S1x1x3x448x448 := Rect.unit (s := S1x1x3x448x448) ![0, 0, 0, 80, 0] S1x1x3x16x448.size Facts₀.inb_S1x1x3x448x448_S1x1x3x16x448_0_0_0_80_0
abbrev rI6 : Rect S1x1x3x448x448 := Rect.unit (s := S1x1x3x448x448) ![0, 0, 0, 96, 0] S1x1x3x16x448.size Facts₀.inb_S1x1x3x448x448_S1x1x3x16x448_0_0_0_96_0
abbrev rI7 : Rect S1x1x3x448x448 := Rect.unit (s := S1x1x3x448x448) ![0, 0, 0, 112, 0] S1x1x3x16x448.size Facts₀.inb_S1x1x3x448x448_S1x1x3x16x448_0_0_0_112_0
abbrev rI8 : Rect S1x1x3x448x448 := Rect.unit (s := S1x1x3x448x448) ![0, 0, 0, 128, 0] S1x1x3x16x448.size Facts₀.inb_S1x1x3x448x448_S1x1x3x16x448_0_0_0_128_0
abbrev rI9 : Rect S1x1x3x448x448 := Rect.unit (s := S1x1x3x448x448) ![0, 0, 0, 144, 0] S1x1x3x16x448.size Facts₀.inb_S1x1x3x448x448_S1x1x3x16x448_0_0_0_144_0
abbrev rI10 : Rect S1x1x3x448x448 := Rect.unit (s := S1x1x3x448x448) ![0, 0, 0, 160, 0] S1x1x3x16x448.size Facts₀.inb_S1x1x3x448x448_S1x1x3x16x448_0_0_0_160_0
abbrev rI11 : Rect S1x1x3x448x448 := Rect.unit (s := S1x1x3x448x448) ![0, 0, 0, 176, 0] S1x1x3x16x448.size Facts₀.inb_S1x1x3x448x448_S1x1x3x16x448_0_0_0_176_0
abbrev rI12 : Rect S1x1x3x448x448 := Rect.unit (s := S1x1x3x448x448) ![0, 0, 0, 192, 0] S1x1x3x16x448.size Facts₀.inb_S1x1x3x448x448_S1x1x3x16x448_0_0_0_192_0
abbrev rI13 : Rect S1x1x3x448x448 := Rect.unit (s := S1x1x3x448x448) ![0, 0, 0, 208, 0] S1x1x3x16x448.size Facts₀.inb_S1x1x3x448x448_S1x1x3x16x448_0_0_0_208_0
abbrev rI14 : Rect S1x1x3x448x448 := Rect.unit (s := S1x1x3x448x448) ![0, 0, 0, 224, 0] S1x1x3x16x448.size Facts₀.inb_S1x1x3x448x448_S1x1x3x16x448_0_0_0_224_0
abbrev rI15 : Rect S1x1x3x448x448 := Rect.unit (s := S1x1x3x448x448) ![0, 0, 0, 240, 0] S1x1x3x16x448.size Facts₀.inb_S1x1x3x448x448_S1x1x3x16x448_0_0_0_240_0
abbrev rI16 : Rect S1x1x3x448x448 := Rect.unit (s := S1x1x3x448x448) ![0, 0, 0, 256, 0] S1x1x3x16x448.size Facts₀.inb_S1x1x3x448x448_S1x1x3x16x448_0_0_0_256_0
abbrev rI17 : Rect S1x1x3x448x448 := Rect.unit (s := S1x1x3x448x448) ![0, 0, 0, 272, 0] S1x1x3x16x448.size Facts₀.inb_S1x1x3x448x448_S1x1x3x16x448_0_0_0_272_0
abbrev rI18 : Rect S1x1x3x448x448 := Rect.unit (s := S1x1x3x448x448) ![0, 0, 0, 288, 0] S1x1x3x16x448.size Facts₀.inb_S1x1x3x448x448_S1x1x3x16x448_0_0_0_288_0
abbrev rI19 : Rect S1x1x3x448x448 := Rect.unit (s := S1x1x3x448x448) ![0, 0, 0, 304, 0] S1x1x3x16x448.size Facts₀.inb_S1x1x3x448x448_S1x1x3x16x448_0_0_0_304_0
abbrev rI20 : Rect S1x1x3x448x448 := Rect.unit (s := S1x1x3x448x448) ![0, 0, 0, 320, 0] S1x1x3x16x448.size Facts₀.inb_S1x1x3x448x448_S1x1x3x16x448_0_0_0_320_0
abbrev rI21 : Rect S1x1x3x448x448 := Rect.unit (s := S1x1x3x448x448) ![0, 0, 0, 336, 0] S1x1x3x16x448.size Facts₀.inb_S1x1x3x448x448_S1x1x3x16x448_0_0_0_336_0
abbrev rI22 : Rect S1x1x3x448x448 := Rect.unit (s := S1x1x3x448x448) ![0, 0, 0, 352, 0] S1x1x3x16x448.size Facts₀.inb_S1x1x3x448x448_S1x1x3x16x448_0_0_0_352_0
abbrev rI23 : Rect S1x1x3x448x448 := Rect.unit (s := S1x1x3x448x448) ![0, 0, 0, 368, 0] S1x1x3x16x448.size Facts₀.inb_S1x1x3x448x448_S1x1x3x16x448_0_0_0_368_0
abbrev rI24 : Rect S1x1x3x448x448 := Rect.unit (s := S1x1x3x448x448) ![0, 0, 0, 384, 0] S1x1x3x16x448.size Facts₀.inb_S1x1x3x448x448_S1x1x3x16x448_0_0_0_384_0
abbrev rI25 : Rect S1x1x3x448x448 := Rect.unit (s := S1x1x3x448x448) ![0, 0, 0, 400, 0] S1x1x3x16x448.size Facts₀.inb_S1x1x3x448x448_S1x1x3x16x448_0_0_0_400_0
abbrev rI26 : Rect S1x1x3x448x448 := Rect.unit (s := S1x1x3x448x448) ![0, 0, 0, 416, 0] S1x1x3x16x448.size Facts₀.inb_S1x1x3x448x448_S1x1x3x16x448_0_0_0_416_0
abbrev rI27 : Rect S1x1x3x448x448 := Rect.unit (s := S1x1x3x448x448) ![0, 0, 0, 432, 0] S1x1x3x16x448.size Facts₀.inb_S1x1x3x448x448_S1x1x3x16x448_0_0_0_432_0
abbrev rO0 : Rect S1x1x784x768 := Rect.unit (s := S1x1x784x768) ![0, 0, 0, 0] S1x1x28x768.size Facts₀.inb_S1x1x784x768_S1x1x28x768_0_0_0_0
abbrev rO1 : Rect S1x1x784x768 := Rect.unit (s := S1x1x784x768) ![0, 0, 28, 0] S1x1x28x768.size Facts₀.inb_S1x1x784x768_S1x1x28x768_0_0_28_0
abbrev rO2 : Rect S1x1x784x768 := Rect.unit (s := S1x1x784x768) ![0, 0, 56, 0] S1x1x28x768.size Facts₀.inb_S1x1x784x768_S1x1x28x768_0_0_56_0
abbrev rO3 : Rect S1x1x784x768 := Rect.unit (s := S1x1x784x768) ![0, 0, 84, 0] S1x1x28x768.size Facts₀.inb_S1x1x784x768_S1x1x28x768_0_0_84_0
abbrev rO4 : Rect S1x1x784x768 := Rect.unit (s := S1x1x784x768) ![0, 0, 112, 0] S1x1x28x768.size Facts₀.inb_S1x1x784x768_S1x1x28x768_0_0_112_0
abbrev rO5 : Rect S1x1x784x768 := Rect.unit (s := S1x1x784x768) ![0, 0, 140, 0] S1x1x28x768.size Facts₀.inb_S1x1x784x768_S1x1x28x768_0_0_140_0
abbrev rO6 : Rect S1x1x784x768 := Rect.unit (s := S1x1x784x768) ![0, 0, 168, 0] S1x1x28x768.size Facts₀.inb_S1x1x784x768_S1x1x28x768_0_0_168_0
abbrev rO7 : Rect S1x1x784x768 := Rect.unit (s := S1x1x784x768) ![0, 0, 196, 0] S1x1x28x768.size Facts₀.inb_S1x1x784x768_S1x1x28x768_0_0_196_0
abbrev rO8 : Rect S1x1x784x768 := Rect.unit (s := S1x1x784x768) ![0, 0, 224, 0] S1x1x28x768.size Facts₀.inb_S1x1x784x768_S1x1x28x768_0_0_224_0
abbrev rO9 : Rect S1x1x784x768 := Rect.unit (s := S1x1x784x768) ![0, 0, 252, 0] S1x1x28x768.size Facts₀.inb_S1x1x784x768_S1x1x28x768_0_0_252_0
abbrev rO10 : Rect S1x1x784x768 := Rect.unit (s := S1x1x784x768) ![0, 0, 280, 0] S1x1x28x768.size Facts₀.inb_S1x1x784x768_S1x1x28x768_0_0_280_0
abbrev rO11 : Rect S1x1x784x768 := Rect.unit (s := S1x1x784x768) ![0, 0, 308, 0] S1x1x28x768.size Facts₀.inb_S1x1x784x768_S1x1x28x768_0_0_308_0
abbrev rO12 : Rect S1x1x784x768 := Rect.unit (s := S1x1x784x768) ![0, 0, 336, 0] S1x1x28x768.size Facts₀.inb_S1x1x784x768_S1x1x28x768_0_0_336_0
abbrev rO13 : Rect S1x1x784x768 := Rect.unit (s := S1x1x784x768) ![0, 0, 364, 0] S1x1x28x768.size Facts₀.inb_S1x1x784x768_S1x1x28x768_0_0_364_0
abbrev rO14 : Rect S1x1x784x768 := Rect.unit (s := S1x1x784x768) ![0, 0, 392, 0] S1x1x28x768.size Facts₀.inb_S1x1x784x768_S1x1x28x768_0_0_392_0
abbrev rO15 : Rect S1x1x784x768 := Rect.unit (s := S1x1x784x768) ![0, 0, 420, 0] S1x1x28x768.size Facts₀.inb_S1x1x784x768_S1x1x28x768_0_0_420_0
abbrev rO16 : Rect S1x1x784x768 := Rect.unit (s := S1x1x784x768) ![0, 0, 448, 0] S1x1x28x768.size Facts₀.inb_S1x1x784x768_S1x1x28x768_0_0_448_0
abbrev rO17 : Rect S1x1x784x768 := Rect.unit (s := S1x1x784x768) ![0, 0, 476, 0] S1x1x28x768.size Facts₀.inb_S1x1x784x768_S1x1x28x768_0_0_476_0
abbrev rO18 : Rect S1x1x784x768 := Rect.unit (s := S1x1x784x768) ![0, 0, 504, 0] S1x1x28x768.size Facts₀.inb_S1x1x784x768_S1x1x28x768_0_0_504_0
abbrev rO19 : Rect S1x1x784x768 := Rect.unit (s := S1x1x784x768) ![0, 0, 532, 0] S1x1x28x768.size Facts₀.inb_S1x1x784x768_S1x1x28x768_0_0_532_0
abbrev rO20 : Rect S1x1x784x768 := Rect.unit (s := S1x1x784x768) ![0, 0, 560, 0] S1x1x28x768.size Facts₀.inb_S1x1x784x768_S1x1x28x768_0_0_560_0
abbrev rO21 : Rect S1x1x784x768 := Rect.unit (s := S1x1x784x768) ![0, 0, 588, 0] S1x1x28x768.size Facts₀.inb_S1x1x784x768_S1x1x28x768_0_0_588_0
abbrev rO22 : Rect S1x1x784x768 := Rect.unit (s := S1x1x784x768) ![0, 0, 616, 0] S1x1x28x768.size Facts₀.inb_S1x1x784x768_S1x1x28x768_0_0_616_0
abbrev rO23 : Rect S1x1x784x768 := Rect.unit (s := S1x1x784x768) ![0, 0, 644, 0] S1x1x28x768.size Facts₀.inb_S1x1x784x768_S1x1x28x768_0_0_644_0
abbrev rO24 : Rect S1x1x784x768 := Rect.unit (s := S1x1x784x768) ![0, 0, 672, 0] S1x1x28x768.size Facts₀.inb_S1x1x784x768_S1x1x28x768_0_0_672_0
abbrev rO25 : Rect S1x1x784x768 := Rect.unit (s := S1x1x784x768) ![0, 0, 700, 0] S1x1x28x768.size Facts₀.inb_S1x1x784x768_S1x1x28x768_0_0_700_0
abbrev rO26 : Rect S1x1x784x768 := Rect.unit (s := S1x1x784x768) ![0, 0, 728, 0] S1x1x28x768.size Facts₀.inb_S1x1x784x768_S1x1x28x768_0_0_728_0
abbrev rO27 : Rect S1x1x784x768 := Rect.unit (s := S1x1x784x768) ![0, 0, 756, 0] S1x1x28x768.size Facts₀.inb_S1x1x784x768_S1x1x28x768_0_0_756_0

/-- The output block after the body, from the input block: the 28 stores as pieces, the last one first. -/
def outBlock (x0 : Vec F S1x1x3x448x448 .f32) : Vec F S1x1x784x768 .f32 :=
  View.canon [
    ⟨rO27, k0_pay2 (View.ld x0 rI27)⟩,
    ⟨rO26, k0_pay1 (k0_pay33 (View.ld x0 rI26))⟩,
    ⟨rO25, k0_pay32 (View.ld x0 rI25)⟩,
    ⟨rO24, k0_pay31 (View.ld x0 rI24)⟩,
    ⟨rO23, k0_pay30 (View.ld x0 rI23)⟩,
    ⟨rO22, k0_pay29 (View.ld x0 rI22)⟩,
    ⟨rO21, k0_pay28 (View.ld x0 rI21)⟩,
    ⟨rO20, k0_pay27 (View.ld x0 rI20)⟩,
    ⟨rO19, k0_pay26 (k0_pay25 (View.ld x0 rI19))⟩,
    ⟨rO18, k0_pay24 (View.ld x0 rI18)⟩,
    ⟨rO17, k0_pay23 (View.ld x0 rI17)⟩,
    ⟨rO16, k0_pay22 (k0_pay21 (View.ld x0 rI16))⟩,
    ⟨rO15, k0_pay20 (View.ld x0 rI15)⟩,
    ⟨rO14, k0_pay19 (View.ld x0 rI14)⟩,
    ⟨rO13, k0_pay18 (View.ld x0 rI13)⟩,
    ⟨rO12, k0_pay17 (View.ld x0 rI12)⟩,
    ⟨rO11, k0_pay16 (View.ld x0 rI11)⟩,
    ⟨rO10, k0_pay15 (View.ld x0 rI10)⟩,
    ⟨rO9, k0_pay14 (k0_pay13 (View.ld x0 rI9))⟩,
    ⟨rO8, k0_pay12 (View.ld x0 rI8)⟩,
    ⟨rO7, k0_pay11 (View.ld x0 rI7)⟩,
    ⟨rO6, k0_pay10 (k0_pay9 (View.ld x0 rI6))⟩,
    ⟨rO5, k0_pay8 (View.ld x0 rI5)⟩,
    ⟨rO4, k0_pay7 (View.ld x0 rI4)⟩,
    ⟨rO3, k0_pay6 (View.ld x0 rI3)⟩,
    ⟨rO2, k0_pay5 (View.ld x0 rI2)⟩,
    ⟨rO1, k0_pay4 (View.ld x0 rI1)⟩,
    ⟨rO0, k0_pay3 (View.ld x0 rI0)⟩]

/-- The 28 row blocks tile the output block, so they cover it. -/
theorem outCover (p0 p1 p2 p3 p4 p5 p6 p7 p8 p9 p10 p11 p12 p13 p14 p15 p16 p17 p18 p19 p20 p21 p22 p23 p24 p25 p26 p27 : Vec F S1x1x28x768 .f32) :
    ∀ y : S1x1x784x768.Idx, ∃ pc ∈ ([⟨rO27, p27⟩, ⟨rO26, p26⟩, ⟨rO25, p25⟩, ⟨rO24, p24⟩, ⟨rO23, p23⟩, ⟨rO22, p22⟩, ⟨rO21, p21⟩, ⟨rO20, p20⟩, ⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1x784x768 .f32)), y ∈ pc.1.set :=
  View.cover_of_tiled [⟨rO27, p27⟩, ⟨rO26, p26⟩, ⟨rO25, p25⟩, ⟨rO24, p24⟩, ⟨rO23, p23⟩, ⟨rO22, p22⟩, ⟨rO21, p21⟩, ⟨rO20, p20⟩, ⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x1x28x768.size (by rfl)

set_option maxHeartbeats 4000000 in
/-- The body on whole staging memrefs, the input's at contents `x0` and the output's at anything, runs to the
    continuation holding the input's as it was and the output's at `outBlock x0`. -/
theorem sound_kernel (c : Dev nD) (E : Set ℕ) (i : grid0.Coords) (arg2 : Memref sig .tc .vmem S1x1x3x448x448 .f32) (harg2 : arg2.IsWhole) (arg3 : Memref sig .tc .vmem S1x1x784x768 .f32) (harg3 : arg3.IsWhole)
    (x0 : Vec F S1x1x3x448x448 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__patchify_kernel i arg2 harg2 arg3 harg3) K := by
  simp only [cc0__patchify_kernel_eq_skeleton]; unfold cc0__patchify_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _ _ _ _ _ _ _ _ _ _ _ _ _ _ _ _ _ _ _ _ _ _ _ _ _ _ _ _)

/-! ## The block a grid point reads -/

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the one pipeline -/

/-- On core `c`: the arrays as the region finds them; after the body at point `t` the input's buffer still at its
    block and the output's at `outBlock` of it; the invariant is the scoped rest and the generator register, untouched;
    nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

/-- The input's current staging buffer holds its block at every point: the window is fetched at every point and its
    index map is the grid point itself. -/
theorem before_in (c : Dev nD) (t : Fin cfg0.N) (d) : (dats m 0 c).before 0 t d = iblk m c 0 t :=
  ((dats m 0 c).before_in_eq_fetched 0 rfl (fun _ => rfl) (fun _ _ _ => rfl)
      (fun t => by rw [after_in]; unfold Dat.blockOf iblk; rw [A_eq]; try rfl) t d).trans
    (by unfold Dat.fetched Dat.blockOf iblk; rw [A_eq]; try rfl)

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KeepsK.lean ====
/-
  The host lines after the kernel region never write an array the region stages: each line writes only its own
  result buffer, and none of those is the argument array or the region's result array.
-/
import proofs.«119378_j75084618268853_1_alg».proof.Proof.HostSideK

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every operation of a stretch leaves both staged arrays alone. -/
abbrev Keeps (ops : List (HloOp τ sig (Elt F))) : Prop :=
  ops.Forall fun op => ∀ w, Proc.devRef .tc (Pipeline.arrRef spec0 w) ∉ op.writes

theorem keeps_0 : Keeps (F := F) hostOps1 := by
  simp only [Keeps, hostOps1, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_1 : Keeps (F := F) hostOps1_1 := by
  simp only [Keeps, hostOps1_1, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_2 : Keeps (F := F) hostOps1_2 := by
  simp only [Keeps, hostOps1_2, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_3 : Keeps (F := F) hostOps1_3 := by
  simp only [Keeps, hostOps1_3, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_4 : Keeps (F := F) hostOps1_4 := by
  simp only [Keeps, hostOps1_4, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_5 : Keeps (F := F) hostOps1_5 := by
  simp only [Keeps, hostOps1_5, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_6 : Keeps (F := F) hostOps1_6 := by
  simp only [Keeps, hostOps1_6, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_7 : Keeps (F := F) hostOps1_7 := by
  simp only [Keeps, hostOps1_7, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_8 : Keeps (F := F) hostOps1_8 := by
  simp only [Keeps, hostOps1_8, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

/-- No line after the region writes an array the region stages. -/
theorem tail_keeps : ∀ ops ∈ (tailOps : List (List (HloOp τ sig (Elt F)))), ∀ op ∈ ops,
    ∀ w, Proc.devRef .tc (Pipeline.arrRef spec0 w) ∉ op.writes := by
  intro ops hops
  simp only [tailOps, List.mem_cons, List.mem_nil_iff, or_false] at hops
  rcases hops with rfl | rfl | rfl | rfl | rfl | rfl | rfl | rfl | rfl
  · exact List.forall_iff_forall_mem.mp keeps_0
  · exact List.forall_iff_forall_mem.mp keeps_1
  · exact List.forall_iff_forall_mem.mp keeps_2
  · exact List.forall_iff_forall_mem.mp keeps_3
  · exact List.forall_iff_forall_mem.mp keeps_4
  · exact List.forall_iff_forall_mem.mp keeps_5
  · exact List.forall_iff_forall_mem.mp keeps_6
  · exact List.forall_iff_forall_mem.mp keeps_7
  · exact List.forall_iff_forall_mem.mp keeps_8

end Cert.Kernel.Hand

end
-- ==== Proof.RunK.lean ====
/-
  The kernel program's run, at any float family: the launch of the one region with the body's obligation, continued by
  the ninety host lines; and its frame — the argument array is the region's first staged array, an input, so it ends as
  the region found it, which is as launched.
-/
import proofs.«119378_j75084618268853_1_alg».proof.Proof.BodyK
import proofs.«119378_j75084618268853_1_alg».proof.Proof.KeepsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates, and every final state
    has the two staged arrays at what the proof data computes and every other unscoped buffer as the later lines leave
    it from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_eq m c main_arg0))))
    (run_main m ρ)

end Cert.Kernel.Hand

end
-- ==== Proof.HostSideKI.lean ====
/-
  The host side of the kernel program's frame, at any float family: the program is one kernel region followed by ninety
  host operations (a reshape of the kernel's result, then integer index arithmetic and two broadcasts). Stated here:
  the program as "region, then the later lines"; that those lines stay within the unscoped buffers, allocate nothing and
  never write an array the region stages; that the argument array is found, and left, as launched; and the block of the
  argument array a grid point reads.
-/
import proofs.«119378_j75084618268853_1_alg».proof.Proof.Gen.KernelIdeal.Launch
import proofs.«119378_j75084618268853_1_alg».proof.Proof.Gen.KernelIdeal.Skeleton
import proofs.«119378_j75084618268853_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: nothing runs before it, so the launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  all_goals
    revert op
    refine List.forall_iff_forall_mem.mp ?_
    simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

end Cert.KernelIdeal.Hand

end
-- ==== Proof.BodyKI.lean ====
/-
  The kernel body at one grid point, at any float family. The body walks the 28 strips of 16 image rows of its input
  block [1,1,3,448,448]: it loads strip r (rows 16 r … 16 r + 15 of every channel), re-lays it as the 28 patches of that
  strip (a [28,768] matrix: patch column, then channel × row × column inside the patch) and stores it as rows
  28 r … 28 r + 27 of its output block [1,1,784,768]. The 28 stores tile the output block, so what the body leaves there
  is the canon of those stores over the input block, whatever the buffer held before.
-/
import proofs.«119378_j75084618268853_1_alg».proof.Proof.HostSideKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

/-! ## The strips read and the row blocks written -/

abbrev rI0 : Rect S1x1x3x448x448 := Rect.unit (s := S1x1x3x448x448) ![0, 0, 0, 0, 0] S1x1x3x16x448.size Facts₀.inb_S1x1x3x448x448_S1x1x3x16x448_0_0_0_0_0
abbrev rI1 : Rect S1x1x3x448x448 := Rect.unit (s := S1x1x3x448x448) ![0, 0, 0, 16, 0] S1x1x3x16x448.size Facts₀.inb_S1x1x3x448x448_S1x1x3x16x448_0_0_0_16_0
abbrev rI2 : Rect S1x1x3x448x448 := Rect.unit (s := S1x1x3x448x448) ![0, 0, 0, 32, 0] S1x1x3x16x448.size Facts₀.inb_S1x1x3x448x448_S1x1x3x16x448_0_0_0_32_0
abbrev rI3 : Rect S1x1x3x448x448 := Rect.unit (s := S1x1x3x448x448) ![0, 0, 0, 48, 0] S1x1x3x16x448.size Facts₀.inb_S1x1x3x448x448_S1x1x3x16x448_0_0_0_48_0
abbrev rI4 : Rect S1x1x3x448x448 := Rect.unit (s := S1x1x3x448x448) ![0, 0, 0, 64, 0] S1x1x3x16x448.size Facts₀.inb_S1x1x3x448x448_S1x1x3x16x448_0_0_0_64_0
abbrev rI5 : Rect S1x1x3x448x448 := Rect.unit (s := S1x1x3x448x448) ![0, 0, 0, 80, 0] S1x1x3x16x448.size Facts₀.inb_S1x1x3x448x448_S1x1x3x16x448_0_0_0_80_0
abbrev rI6 : Rect S1x1x3x448x448 := Rect.unit (s := S1x1x3x448x448) ![0, 0, 0, 96, 0] S1x1x3x16x448.size Facts₀.inb_S1x1x3x448x448_S1x1x3x16x448_0_0_0_96_0
abbrev rI7 : Rect S1x1x3x448x448 := Rect.unit (s := S1x1x3x448x448) ![0, 0, 0, 112, 0] S1x1x3x16x448.size Facts₀.inb_S1x1x3x448x448_S1x1x3x16x448_0_0_0_112_0
abbrev rI8 : Rect S1x1x3x448x448 := Rect.unit (s := S1x1x3x448x448) ![0, 0, 0, 128, 0] S1x1x3x16x448.size Facts₀.inb_S1x1x3x448x448_S1x1x3x16x448_0_0_0_128_0
abbrev rI9 : Rect S1x1x3x448x448 := Rect.unit (s := S1x1x3x448x448) ![0, 0, 0, 144, 0] S1x1x3x16x448.size Facts₀.inb_S1x1x3x448x448_S1x1x3x16x448_0_0_0_144_0
abbrev rI10 : Rect S1x1x3x448x448 := Rect.unit (s := S1x1x3x448x448) ![0, 0, 0, 160, 0] S1x1x3x16x448.size Facts₀.inb_S1x1x3x448x448_S1x1x3x16x448_0_0_0_160_0
abbrev rI11 : Rect S1x1x3x448x448 := Rect.unit (s := S1x1x3x448x448) ![0, 0, 0, 176, 0] S1x1x3x16x448.size Facts₀.inb_S1x1x3x448x448_S1x1x3x16x448_0_0_0_176_0
abbrev rI12 : Rect S1x1x3x448x448 := Rect.unit (s := S1x1x3x448x448) ![0, 0, 0, 192, 0] S1x1x3x16x448.size Facts₀.inb_S1x1x3x448x448_S1x1x3x16x448_0_0_0_192_0
abbrev rI13 : Rect S1x1x3x448x448 := Rect.unit (s := S1x1x3x448x448) ![0, 0, 0, 208, 0] S1x1x3x16x448.size Facts₀.inb_S1x1x3x448x448_S1x1x3x16x448_0_0_0_208_0
abbrev rI14 : Rect S1x1x3x448x448 := Rect.unit (s := S1x1x3x448x448) ![0, 0, 0, 224, 0] S1x1x3x16x448.size Facts₀.inb_S1x1x3x448x448_S1x1x3x16x448_0_0_0_224_0
abbrev rI15 : Rect S1x1x3x448x448 := Rect.unit (s := S1x1x3x448x448) ![0, 0, 0, 240, 0] S1x1x3x16x448.size Facts₀.inb_S1x1x3x448x448_S1x1x3x16x448_0_0_0_240_0
abbrev rI16 : Rect S1x1x3x448x448 := Rect.unit (s := S1x1x3x448x448) ![0, 0, 0, 256, 0] S1x1x3x16x448.size Facts₀.inb_S1x1x3x448x448_S1x1x3x16x448_0_0_0_256_0
abbrev rI17 : Rect S1x1x3x448x448 := Rect.unit (s := S1x1x3x448x448) ![0, 0, 0, 272, 0] S1x1x3x16x448.size Facts₀.inb_S1x1x3x448x448_S1x1x3x16x448_0_0_0_272_0
abbrev rI18 : Rect S1x1x3x448x448 := Rect.unit (s := S1x1x3x448x448) ![0, 0, 0, 288, 0] S1x1x3x16x448.size Facts₀.inb_S1x1x3x448x448_S1x1x3x16x448_0_0_0_288_0
abbrev rI19 : Rect S1x1x3x448x448 := Rect.unit (s := S1x1x3x448x448) ![0, 0, 0, 304, 0] S1x1x3x16x448.size Facts₀.inb_S1x1x3x448x448_S1x1x3x16x448_0_0_0_304_0
abbrev rI20 : Rect S1x1x3x448x448 := Rect.unit (s := S1x1x3x448x448) ![0, 0, 0, 320, 0] S1x1x3x16x448.size Facts₀.inb_S1x1x3x448x448_S1x1x3x16x448_0_0_0_320_0
abbrev rI21 : Rect S1x1x3x448x448 := Rect.unit (s := S1x1x3x448x448) ![0, 0, 0, 336, 0] S1x1x3x16x448.size Facts₀.inb_S1x1x3x448x448_S1x1x3x16x448_0_0_0_336_0
abbrev rI22 : Rect S1x1x3x448x448 := Rect.unit (s := S1x1x3x448x448) ![0, 0, 0, 352, 0] S1x1x3x16x448.size Facts₀.inb_S1x1x3x448x448_S1x1x3x16x448_0_0_0_352_0
abbrev rI23 : Rect S1x1x3x448x448 := Rect.unit (s := S1x1x3x448x448) ![0, 0, 0, 368, 0] S1x1x3x16x448.size Facts₀.inb_S1x1x3x448x448_S1x1x3x16x448_0_0_0_368_0
abbrev rI24 : Rect S1x1x3x448x448 := Rect.unit (s := S1x1x3x448x448) ![0, 0, 0, 384, 0] S1x1x3x16x448.size Facts₀.inb_S1x1x3x448x448_S1x1x3x16x448_0_0_0_384_0
abbrev rI25 : Rect S1x1x3x448x448 := Rect.unit (s := S1x1x3x448x448) ![0, 0, 0, 400, 0] S1x1x3x16x448.size Facts₀.inb_S1x1x3x448x448_S1x1x3x16x448_0_0_0_400_0
abbrev rI26 : Rect S1x1x3x448x448 := Rect.unit (s := S1x1x3x448x448) ![0, 0, 0, 416, 0] S1x1x3x16x448.size Facts₀.inb_S1x1x3x448x448_S1x1x3x16x448_0_0_0_416_0
abbrev rI27 : Rect S1x1x3x448x448 := Rect.unit (s := S1x1x3x448x448) ![0, 0, 0, 432, 0] S1x1x3x16x448.size Facts₀.inb_S1x1x3x448x448_S1x1x3x16x448_0_0_0_432_0
abbrev rO0 : Rect S1x1x784x768 := Rect.unit (s := S1x1x784x768) ![0, 0, 0, 0] S1x1x28x768.size Facts₀.inb_S1x1x784x768_S1x1x28x768_0_0_0_0
abbrev rO1 : Rect S1x1x784x768 := Rect.unit (s := S1x1x784x768) ![0, 0, 28, 0] S1x1x28x768.size Facts₀.inb_S1x1x784x768_S1x1x28x768_0_0_28_0
abbrev rO2 : Rect S1x1x784x768 := Rect.unit (s := S1x1x784x768) ![0, 0, 56, 0] S1x1x28x768.size Facts₀.inb_S1x1x784x768_S1x1x28x768_0_0_56_0
abbrev rO3 : Rect S1x1x784x768 := Rect.unit (s := S1x1x784x768) ![0, 0, 84, 0] S1x1x28x768.size Facts₀.inb_S1x1x784x768_S1x1x28x768_0_0_84_0
abbrev rO4 : Rect S1x1x784x768 := Rect.unit (s := S1x1x784x768) ![0, 0, 112, 0] S1x1x28x768.size Facts₀.inb_S1x1x784x768_S1x1x28x768_0_0_112_0
abbrev rO5 : Rect S1x1x784x768 := Rect.unit (s := S1x1x784x768) ![0, 0, 140, 0] S1x1x28x768.size Facts₀.inb_S1x1x784x768_S1x1x28x768_0_0_140_0
abbrev rO6 : Rect S1x1x784x768 := Rect.unit (s := S1x1x784x768) ![0, 0, 168, 0] S1x1x28x768.size Facts₀.inb_S1x1x784x768_S1x1x28x768_0_0_168_0
abbrev rO7 : Rect S1x1x784x768 := Rect.unit (s := S1x1x784x768) ![0, 0, 196, 0] S1x1x28x768.size Facts₀.inb_S1x1x784x768_S1x1x28x768_0_0_196_0
abbrev rO8 : Rect S1x1x784x768 := Rect.unit (s := S1x1x784x768) ![0, 0, 224, 0] S1x1x28x768.size Facts₀.inb_S1x1x784x768_S1x1x28x768_0_0_224_0
abbrev rO9 : Rect S1x1x784x768 := Rect.unit (s := S1x1x784x768) ![0, 0, 252, 0] S1x1x28x768.size Facts₀.inb_S1x1x784x768_S1x1x28x768_0_0_252_0
abbrev rO10 : Rect S1x1x784x768 := Rect.unit (s := S1x1x784x768) ![0, 0, 280, 0] S1x1x28x768.size Facts₀.inb_S1x1x784x768_S1x1x28x768_0_0_280_0
abbrev rO11 : Rect S1x1x784x768 := Rect.unit (s := S1x1x784x768) ![0, 0, 308, 0] S1x1x28x768.size Facts₀.inb_S1x1x784x768_S1x1x28x768_0_0_308_0
abbrev rO12 : Rect S1x1x784x768 := Rect.unit (s := S1x1x784x768) ![0, 0, 336, 0] S1x1x28x768.size Facts₀.inb_S1x1x784x768_S1x1x28x768_0_0_336_0
abbrev rO13 : Rect S1x1x784x768 := Rect.unit (s := S1x1x784x768) ![0, 0, 364, 0] S1x1x28x768.size Facts₀.inb_S1x1x784x768_S1x1x28x768_0_0_364_0
abbrev rO14 : Rect S1x1x784x768 := Rect.unit (s := S1x1x784x768) ![0, 0, 392, 0] S1x1x28x768.size Facts₀.inb_S1x1x784x768_S1x1x28x768_0_0_392_0
abbrev rO15 : Rect S1x1x784x768 := Rect.unit (s := S1x1x784x768) ![0, 0, 420, 0] S1x1x28x768.size Facts₀.inb_S1x1x784x768_S1x1x28x768_0_0_420_0
abbrev rO16 : Rect S1x1x784x768 := Rect.unit (s := S1x1x784x768) ![0, 0, 448, 0] S1x1x28x768.size Facts₀.inb_S1x1x784x768_S1x1x28x768_0_0_448_0
abbrev rO17 : Rect S1x1x784x768 := Rect.unit (s := S1x1x784x768) ![0, 0, 476, 0] S1x1x28x768.size Facts₀.inb_S1x1x784x768_S1x1x28x768_0_0_476_0
abbrev rO18 : Rect S1x1x784x768 := Rect.unit (s := S1x1x784x768) ![0, 0, 504, 0] S1x1x28x768.size Facts₀.inb_S1x1x784x768_S1x1x28x768_0_0_504_0
abbrev rO19 : Rect S1x1x784x768 := Rect.unit (s := S1x1x784x768) ![0, 0, 532, 0] S1x1x28x768.size Facts₀.inb_S1x1x784x768_S1x1x28x768_0_0_532_0
abbrev rO20 : Rect S1x1x784x768 := Rect.unit (s := S1x1x784x768) ![0, 0, 560, 0] S1x1x28x768.size Facts₀.inb_S1x1x784x768_S1x1x28x768_0_0_560_0
abbrev rO21 : Rect S1x1x784x768 := Rect.unit (s := S1x1x784x768) ![0, 0, 588, 0] S1x1x28x768.size Facts₀.inb_S1x1x784x768_S1x1x28x768_0_0_588_0
abbrev rO22 : Rect S1x1x784x768 := Rect.unit (s := S1x1x784x768) ![0, 0, 616, 0] S1x1x28x768.size Facts₀.inb_S1x1x784x768_S1x1x28x768_0_0_616_0
abbrev rO23 : Rect S1x1x784x768 := Rect.unit (s := S1x1x784x768) ![0, 0, 644, 0] S1x1x28x768.size Facts₀.inb_S1x1x784x768_S1x1x28x768_0_0_644_0
abbrev rO24 : Rect S1x1x784x768 := Rect.unit (s := S1x1x784x768) ![0, 0, 672, 0] S1x1x28x768.size Facts₀.inb_S1x1x784x768_S1x1x28x768_0_0_672_0
abbrev rO25 : Rect S1x1x784x768 := Rect.unit (s := S1x1x784x768) ![0, 0, 700, 0] S1x1x28x768.size Facts₀.inb_S1x1x784x768_S1x1x28x768_0_0_700_0
abbrev rO26 : Rect S1x1x784x768 := Rect.unit (s := S1x1x784x768) ![0, 0, 728, 0] S1x1x28x768.size Facts₀.inb_S1x1x784x768_S1x1x28x768_0_0_728_0
abbrev rO27 : Rect S1x1x784x768 := Rect.unit (s := S1x1x784x768) ![0, 0, 756, 0] S1x1x28x768.size Facts₀.inb_S1x1x784x768_S1x1x28x768_0_0_756_0

/-- The output block after the body, from the input block: the 28 stores as pieces, the last one first. -/
def outBlock (x0 : Vec F S1x1x3x448x448 .f32) : Vec F S1x1x784x768 .f32 :=
  View.canon [
    ⟨rO27, k0_pay2 (View.ld x0 rI27)⟩,
    ⟨rO26, k0_pay1 (k0_pay33 (View.ld x0 rI26))⟩,
    ⟨rO25, k0_pay32 (View.ld x0 rI25)⟩,
    ⟨rO24, k0_pay31 (View.ld x0 rI24)⟩,
    ⟨rO23, k0_pay30 (View.ld x0 rI23)⟩,
    ⟨rO22, k0_pay29 (View.ld x0 rI22)⟩,
    ⟨rO21, k0_pay28 (View.ld x0 rI21)⟩,
    ⟨rO20, k0_pay27 (View.ld x0 rI20)⟩,
    ⟨rO19, k0_pay26 (k0_pay25 (View.ld x0 rI19))⟩,
    ⟨rO18, k0_pay24 (View.ld x0 rI18)⟩,
    ⟨rO17, k0_pay23 (View.ld x0 rI17)⟩,
    ⟨rO16, k0_pay22 (k0_pay21 (View.ld x0 rI16))⟩,
    ⟨rO15, k0_pay20 (View.ld x0 rI15)⟩,
    ⟨rO14, k0_pay19 (View.ld x0 rI14)⟩,
    ⟨rO13, k0_pay18 (View.ld x0 rI13)⟩,
    ⟨rO12, k0_pay17 (View.ld x0 rI12)⟩,
    ⟨rO11, k0_pay16 (View.ld x0 rI11)⟩,
    ⟨rO10, k0_pay15 (View.ld x0 rI10)⟩,
    ⟨rO9, k0_pay14 (k0_pay13 (View.ld x0 rI9))⟩,
    ⟨rO8, k0_pay12 (View.ld x0 rI8)⟩,
    ⟨rO7, k0_pay11 (View.ld x0 rI7)⟩,
    ⟨rO6, k0_pay10 (k0_pay9 (View.ld x0 rI6))⟩,
    ⟨rO5, k0_pay8 (View.ld x0 rI5)⟩,
    ⟨rO4, k0_pay7 (View.ld x0 rI4)⟩,
    ⟨rO3, k0_pay6 (View.ld x0 rI3)⟩,
    ⟨rO2, k0_pay5 (View.ld x0 rI2)⟩,
    ⟨rO1, k0_pay4 (View.ld x0 rI1)⟩,
    ⟨rO0, k0_pay3 (View.ld x0 rI0)⟩]

/-- The 28 row blocks tile the output block, so they cover it. -/
theorem outCover (p0 p1 p2 p3 p4 p5 p6 p7 p8 p9 p10 p11 p12 p13 p14 p15 p16 p17 p18 p19 p20 p21 p22 p23 p24 p25 p26 p27 : Vec F S1x1x28x768 .f32) :
    ∀ y : S1x1x784x768.Idx, ∃ pc ∈ ([⟨rO27, p27⟩, ⟨rO26, p26⟩, ⟨rO25, p25⟩, ⟨rO24, p24⟩, ⟨rO23, p23⟩, ⟨rO22, p22⟩, ⟨rO21, p21⟩, ⟨rO20, p20⟩, ⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1x784x768 .f32)), y ∈ pc.1.set :=
  View.cover_of_tiled [⟨rO27, p27⟩, ⟨rO26, p26⟩, ⟨rO25, p25⟩, ⟨rO24, p24⟩, ⟨rO23, p23⟩, ⟨rO22, p22⟩, ⟨rO21, p21⟩, ⟨rO20, p20⟩, ⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x1x28x768.size (by rfl)

set_option maxHeartbeats 4000000 in
/-- The body on whole staging memrefs, the input's at contents `x0` and the output's at anything, runs to the
    continuation holding the input's as it was and the output's at `outBlock x0`. -/
theorem sound_kernel (c : Dev nD) (E : Set ℕ) (i : grid0.Coords) (arg2 : Memref sig .tc .vmem S1x1x3x448x448 .f32) (harg2 : arg2.IsWhole) (arg3 : Memref sig .tc .vmem S1x1x784x768 .f32) (harg3 : arg3.IsWhole)
    (x0 : Vec F S1x1x3x448x448 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__patchify_kernel i arg2 harg2 arg3 harg3) K := by
  simp only [cc0__patchify_kernel_eq_skeleton]; unfold cc0__patchify_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _ _ _ _ _ _ _ _ _ _ _ _ _ _ _ _ _ _ _ _ _ _ _ _ _ _ _ _)

/-! ## The block a grid point reads -/

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the one pipeline -/

/-- On core `c`: the arrays as the region finds them; after the body at point `t` the input's buffer still at its
    block and the output's at `outBlock` of it; the invariant is the scoped rest and the generator register, untouched;
    nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

/-- The input's current staging buffer holds its block at every point: the window is fetched at every point and its
    index map is the grid point itself. -/
theorem before_in (c : Dev nD) (t : Fin cfg0.N) (d) : (dats m 0 c).before 0 t d = iblk m c 0 t :=
  ((dats m 0 c).before_in_eq_fetched 0 rfl (fun _ => rfl) (fun _ _ _ => rfl)
      (fun t => by rw [after_in]; unfold Dat.blockOf iblk; rw [A_eq]; try rfl) t d).trans
    (by unfold Dat.fetched Dat.blockOf iblk; rw [A_eq]; try rfl)

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KeepsKI.lean ====
/-
  The host lines after the kernel region never write an array the region stages: each line writes only its own
  result buffer, and none of those is the argument array or the region's result array.
-/
import proofs.«119378_j75084618268853_1_alg».proof.Proof.HostSideKI

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every operation of a stretch leaves both staged arrays alone. -/
abbrev Keeps (ops : List (HloOp τ sig (Elt F))) : Prop :=
  ops.Forall fun op => ∀ w, Proc.devRef .tc (Pipeline.arrRef spec0 w) ∉ op.writes

theorem keeps_0 : Keeps (F := F) hostOps1 := by
  simp only [Keeps, hostOps1, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_1 : Keeps (F := F) hostOps1_1 := by
  simp only [Keeps, hostOps1_1, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_2 : Keeps (F := F) hostOps1_2 := by
  simp only [Keeps, hostOps1_2, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_3 : Keeps (F := F) hostOps1_3 := by
  simp only [Keeps, hostOps1_3, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_4 : Keeps (F := F) hostOps1_4 := by
  simp only [Keeps, hostOps1_4, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_5 : Keeps (F := F) hostOps1_5 := by
  simp only [Keeps, hostOps1_5, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_6 : Keeps (F := F) hostOps1_6 := by
  simp only [Keeps, hostOps1_6, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_7 : Keeps (F := F) hostOps1_7 := by
  simp only [Keeps, hostOps1_7, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

theorem keeps_8 : Keeps (F := F) hostOps1_8 := by
  simp only [Keeps, hostOps1_8, List.Forall, StableHlo.nullary_writes, StableHlo.unary_writes, StableHlo.binary_writes,
    StableHlo.ternary_writes, StableHlo.reshape_writes, StableHlo.nary_writes, Finset.mem_singleton]
  repeat' apply And.intro
  all_goals (intro w; fin_cases w <;> exact StableHlo.devRef_ne_of_ne (by decide))

/-- No line after the region writes an array the region stages. -/
theorem tail_keeps : ∀ ops ∈ (tailOps : List (List (HloOp τ sig (Elt F)))), ∀ op ∈ ops,
    ∀ w, Proc.devRef .tc (Pipeline.arrRef spec0 w) ∉ op.writes := by
  intro ops hops
  simp only [tailOps, List.mem_cons, List.mem_nil_iff, or_false] at hops
  rcases hops with rfl | rfl | rfl | rfl | rfl | rfl | rfl | rfl | rfl
  · exact List.forall_iff_forall_mem.mp keeps_0
  · exact List.forall_iff_forall_mem.mp keeps_1
  · exact List.forall_iff_forall_mem.mp keeps_2
  · exact List.forall_iff_forall_mem.mp keeps_3
  · exact List.forall_iff_forall_mem.mp keeps_4
  · exact List.forall_iff_forall_mem.mp keeps_5
  · exact List.forall_iff_forall_mem.mp keeps_6
  · exact List.forall_iff_forall_mem.mp keeps_7
  · exact List.forall_iff_forall_mem.mp keeps_8

end Cert.KernelIdeal.Hand

end
-- ==== Proof.RunKI.lean ====
/-
  The kernel program's run, at any float family: the launch of the one region with the body's obligation, continued by
  the ninety host lines; and its frame — the argument array is the region's first staged array, an input, so it ends as
  the region found it, which is as launched.
-/
import proofs.«119378_j75084618268853_1_alg».proof.Proof.BodyKI
import proofs.«119378_j75084618268853_1_alg».proof.Proof.KeepsKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates, and every final state
    has the two staged arrays at what the proof data computes and every other unscoped buffer as the later lines leave
    it from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_eq m c main_arg0))))
    (run_main m ρ)

end Cert.KernelIdeal.Hand

end
-- ==== Proof.Positions.lean ====
/-
  The patch positions and the all-ones mask as closed terms over the integer operations, stated apart from
  any program so that two programs' runs can both be shown to compute them.

  A patch index p in [0, 3136) is split as p = 784 * frame + 28 * row + col. Floor division and remainder are
  built from the truncating operations: a truncating quotient corrected by one where the signs differ
  and the remainder is non-zero, and a truncating remainder shifted by the divisor where its sign disagrees with
  the divisor's. The shape relations the operations take are arguments, so that either program's own facts
  can be supplied.
-/
import Idealize.ShloMosaic.PureOps

noncomputable section

namespace Cert.Pos

open Idealize.ShloMosaic

abbrev S3136 : Shape := ⟨1, ![3136]⟩
abbrev S_ : Shape := ⟨0, ![]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

variable {F : FTy → Type} [FloatOps F]

/-- Floor division of a vector by a scalar: the truncating quotient, less one where the operand's sign differs from
    the divisor's and the truncating remainder is not zero. -/
def floorDiv (hb : S_.BroadcastsInDim S3136 (![] : Fin 0 → Fin S3136.rank)) (x : IVec S3136 32) (d : IVec S_ 32) :
    IVec S3136 32 :=
  let v0 : IVec S_ 32 := id d
  let v1 : IVec S3136 32 := broadcastInDim S3136 ![] hb v0
  let v2 : IVec S3136 32 := Host.divsi x v1
  let v3 : IVec S3136 32 := signi x
  let v4 : IVec S_ 32 := signi v0
  let v5 : IVec S3136 32 := broadcastInDim S3136 ![] hb v4
  let v6 : IVec S3136 1 := cmpi .ne v3 v5
  let v7 : IVec S3136 32 := broadcastInDim S3136 ![] hb v0
  let v8 : IVec S3136 32 := Host.remsi x v7
  let c : IVec S_ 32 := constantI S_ 32 0#32
  let v9 : IVec S3136 32 := broadcastInDim S3136 ![] hb c
  let v10 : IVec S3136 1 := cmpi .ne v8 v9
  let v11 : IVec S3136 1 := andi v6 v10
  let c_0 : IVec S_ 32 := constantI S_ 32 1#32
  let v12 : IVec S3136 32 := broadcastInDim S3136 ![] hb c_0
  let v13 : IVec S3136 32 := subi v2 v12
  select v11 v13 v2

/-- Remainder of a vector by a scalar with the divisor's sign: the truncating remainder (by one where the divisor
    is zero), plus the divisor where it is non-zero and its sign is not the divisor's. -/
def remainder (hb : S_.BroadcastsInDim S3136 (![] : Fin 0 → Fin S3136.rank)) (x : IVec S3136 32) (d : IVec S_ 32) :
    IVec S3136 32 :=
  let v0 : IVec S_ 32 := id d
  let c : IVec S_ 32 := constantI S_ 32 0#32
  let v1 : IVec S_ 1 := cmpi .eq v0 c
  let c_0 : IVec S_ 32 := constantI S_ 32 1#32
  let v2 : IVec S_ 32 := select v1 c_0 v0
  let v3 : IVec S3136 32 := broadcastInDim S3136 ![] hb v2
  let v4 : IVec S3136 32 := Host.remsi x v3
  let c_1 : IVec S_ 32 := constantI S_ 32 0#32
  let v5 : IVec S3136 32 := broadcastInDim S3136 ![] hb c_1
  let v6 : IVec S3136 1 := cmpi .ne v4 v5
  let c_2 : IVec S_ 32 := constantI S_ 32 0#32
  let v7 : IVec S3136 32 := broadcastInDim S3136 ![] hb c_2
  let v8 : IVec S3136 1 := cmpi .slt v4 v7
  let c_3 : IVec S_ 32 := constantI S_ 32 0#32
  let v9 : IVec S_ 1 := cmpi .slt v2 c_3
  let v10 : IVec S3136 1 := broadcastInDim S3136 ![] hb v9
  let v11 : IVec S3136 1 := cmpi .ne v8 v10
  let v12 : IVec S3136 1 := andi v11 v6
  let v13 : IVec S3136 32 := broadcastInDim S3136 ![] hb v2
  let v14 : IVec S3136 32 := addi v4 v13
  select v12 v14 v4

/-- The positions tensor: at batch b, patch p and component k the frame p / 784 (k = 0), the row (p % 784) / 28
    (k = 1) or the column (p % 784) % 28 (k = 2) of the patch, whatever b. -/
def positions (hb : S_.BroadcastsInDim S3136 (![] : Fin 0 → Fin S3136.rank))
    (hb1 : S3136.BroadcastsInDim S3136x1 (![0] : Fin 1 → Fin S3136x1.rank))
    (hc : Shape.Concatenates [S3136x1, S3136x1, S3136x1] S3136x3 1)
    (hb2 : S3136x3.BroadcastsInDim S1x3136x3 (![1, 2] : Fin 2 → Fin S1x3136x3.rank))
    (hb3 : S1x3136x3.BroadcastsInDim S32x3136x3 (![0, 1, 2] : Fin 3 → Fin S32x3136x3.rank)) :
    (⟨S32x3136x3, .i32⟩ : BufTy).Contents (Elt F) :=
  let p : IVec S3136 32 := iotaInDim S3136 32 0
  let frame : IVec S3136 32 := floorDiv hb p (constantI S_ 32 784#32)
  let inFrame : IVec S3136 32 := remainder hb p (constantI S_ 32 784#32)
  let row : IVec S3136 32 := floorDiv hb inFrame (constantI S_ 32 28#32)
  let col : IVec S3136 32 := remainder hb inFrame (constantI S_ 32 28#32)
  let v7 : IVec S3136x1 32 := broadcastInDim S3136x1 ![0] hb1 frame
  let v8 : IVec S3136x1 32 := broadcastInDim S3136x1 ![0] hb1 row
  let v9 : IVec S3136x1 32 := broadcastInDim S3136x1 ![0] hb1 col
  let v10 : IVec S3136x3 32 := concatenate S3136x3 1 [⟨S3136x1, v7⟩, ⟨S3136x1, v8⟩, ⟨S3136x1, v9⟩] hc
  let v11 : IVec S1x3136x3 32 := broadcastInDim S1x3136x3 ![1, 2] hb2 v10
  broadcastInDim S32x3136x3 ![0, 1, 2] hb3 v11

/-- The mask: one at every batch and patch. -/
def ones (hb : S_.BroadcastsInDim S32x3136 (![] : Fin 0 → Fin S32x3136.rank)) :
    (⟨S32x3136, .f32⟩ : BufTy).Contents (Elt F) :=
  broadcastInDim S32x3136 ![] hb (constant (F := F) S_ .f32 0x3F800000#32)

end Cert.Pos

end
-- ==== Proof.LibNary3.lean ====
/-
  The result of an n-ary host operation over a literal family of THREE references (a concatenation of three
  operands), with each operand's contents read at its own reference rather than under a binder over the family.
-/
import Idealize.ShloMosaic.Lib.StableHlo.Run

noncomputable section

namespace Idealize.ShloMosaic.StableHlo

variable {τ : Topo} {sig : RefSig} {Val : EltTy → Type}
variable {x a b y : Ref sig .tc}

/-- An n-ary operation over the literal family `![x, a, b]` leaves at its result buffer its function applied to the
    three operands' contents, each at its own reference: `Fin.cons (F x) (Fin.cons (F a) (Fin.cons (F b) _))` in place
    of `fun k => F (![x, a, b] k)`. Under the binder the reference `![x, a, b] k` is no literal, so no result lemma
    of an earlier operation applies to it; at the three references they do. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference kept out of the index of a simplification set, as the one-pass result
    lemmas are stated. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.TailKI.lean ====
/-
  What the host lines after the kernel region leave, from ANY contents at the region's exit: the first result is the
  region's result array reshaped; the second is the positions tensor (frame, row and column of each patch, by floor
  division and remainder of the patch index); the third is the mask of ones; the argument array is untouched.

  The ninety lines are read stretch by stretch. Each stretch is one floor division or one remainder by a scalar,
  a lone constant, or the closing lines; what a stretch leaves at the buffer later lines
  read is stated from any contents before it, and a buffer a stretch does not write is as it was. The whole tail is
  then the composition of these equations.
-/
import proofs.«119378_j75084618268853_1_alg».proof.Proof.HostSideKI
import proofs.«119378_j75084618268853_1_alg».proof.Proof.Positions
import proofs.«119378_j75084618268853_1_alg».proof.Proof.LibNary3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

/-! ## What each stretch writes, and that it leaves the rest -/

/-- The buffers stretch 0 writes: one per line, the line's own result. -/
abbrev wr0 : List (Ref sig .tc) :=
  [main_v1, main_v2, main_c]

theorem writes_0 : (hostOps1 : List (HloOp τ sig (Elt F))).Forall fun op =>
    op.writes ⊆ (wr0.map (Proc.devRef (τ := τ) .tc)).toFinset := by
  simp only [hostOps1, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 0 does not write is as it was. -/
theorem frame_0 (V : Valuation τ sig (Elt F)) (r : Ref sig .tc) (hr : r ∉ wr0) :
    StableHlo.after hostOps1 V (Proc.devRef .tc r) = V (Proc.devRef .tc r) :=
  StableHlo.after_of_writes_sub _ V writes_0 hr

/-- The buffers stretch 1 writes: one per line, the line's own result. -/
abbrev wr1 : List (Ref sig .tc) :=
  [main_call0_v0, main_call0_v1, main_call0_v2, main_call0_v3, main_call0_v4, main_call0_v5,
   main_call0_v6, main_call0_v7, main_call0_v8, main_call0_c, main_call0_v9, main_call0_v10,
   main_call0_v11, main_call0_c_0, main_call0_v12, main_call0_v13, main_v3]

theorem writes_1 : (hostOps1_1 : List (HloOp τ sig (Elt F))).Forall fun op =>
    op.writes ⊆ (wr1.map (Proc.devRef (τ := τ) .tc)).toFinset := by
  simp only [hostOps1_1, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 1 does not write is as it was. -/
theorem frame_1 (V : Valuation τ sig (Elt F)) (r : Ref sig .tc) (hr : r ∉ wr1) :
    StableHlo.after hostOps1_1 V (Proc.devRef .tc r) = V (Proc.devRef .tc r) :=
  StableHlo.after_of_writes_sub _ V writes_1 hr

/-- The buffers stretch 2 writes: one per line, the line's own result. -/
abbrev wr2 : List (Ref sig .tc) :=
  [main_c_0]

theorem writes_2 : (hostOps1_2 : List (HloOp τ sig (Elt F))).Forall fun op =>
    op.writes ⊆ (wr2.map (Proc.devRef (τ := τ) .tc)).toFinset := by
  simp only [hostOps1_2, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 2 does not write is as it was. -/
theorem frame_2 (V : Valuation τ sig (Elt F)) (r : Ref sig .tc) (hr : r ∉ wr2) :
    StableHlo.after hostOps1_2 V (Proc.devRef .tc r) = V (Proc.devRef .tc r) :=
  StableHlo.after_of_writes_sub _ V writes_2 hr

/-- The buffers stretch 3 writes: one per line, the line's own result. -/
abbrev wr3 : List (Ref sig .tc) :=
  [main_call1_v0, main_call1_c, main_call1_v1, main_call1_c_0, main_call1_v2, main_call1_v3,
   main_call1_v4, main_call1_c_1, main_call1_v5, main_call1_v6, main_call1_c_2, main_call1_v7,
   main_call1_v8, main_call1_c_3, main_call1_v9, main_call1_v10, main_call1_v11, main_call1_v12,
   main_call1_v13, main_call1_v14, main_v4]

theorem writes_3 : (hostOps1_3 : List (HloOp τ sig (Elt F))).Forall fun op =>
    op.writes ⊆ (wr3.map (Proc.devRef (τ := τ) .tc)).toFinset := by
  simp only [hostOps1_3, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 3 does not write is as it was. -/
theorem frame_3 (V : Valuation τ sig (Elt F)) (r : Ref sig .tc) (hr : r ∉ wr3) :
    StableHlo.after hostOps1_3 V (Proc.devRef .tc r) = V (Proc.devRef .tc r) :=
  StableHlo.after_of_writes_sub _ V writes_3 hr

/-- The buffers stretch 4 writes: one per line, the line's own result. -/
abbrev wr4 : List (Ref sig .tc) :=
  [main_c_1]

theorem writes_4 : (hostOps1_4 : List (HloOp τ sig (Elt F))).Forall fun op =>
    op.writes ⊆ (wr4.map (Proc.devRef (τ := τ) .tc)).toFinset := by
  simp only [hostOps1_4, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 4 does not write is as it was. -/
theorem frame_4 (V : Valuation τ sig (Elt F)) (r : Ref sig .tc) (hr : r ∉ wr4) :
    StableHlo.after hostOps1_4 V (Proc.devRef .tc r) = V (Proc.devRef .tc r) :=
  StableHlo.after_of_writes_sub _ V writes_4 hr

/-- The buffers stretch 5 writes: one per line, the line's own result. -/
abbrev wr5 : List (Ref sig .tc) :=
  [main_call2_v0, main_call2_v1, main_call2_v2, main_call2_v3, main_call2_v4, main_call2_v5,
   main_call2_v6, main_call2_v7, main_call2_v8, main_call2_c, main_call2_v9, main_call2_v10,
   main_call2_v11, main_call2_c_0, main_call2_v12, main_call2_v13, main_v5]

theorem writes_5 : (hostOps1_5 : List (HloOp τ sig (Elt F))).Forall fun op =>
    op.writes ⊆ (wr5.map (Proc.devRef (τ := τ) .tc)).toFinset := by
  simp only [hostOps1_5, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 5 does not write is as it was. -/
theorem frame_5 (V : Valuation τ sig (Elt F)) (r : Ref sig .tc) (hr : r ∉ wr5) :
    StableHlo.after hostOps1_5 V (Proc.devRef .tc r) = V (Proc.devRef .tc r) :=
  StableHlo.after_of_writes_sub _ V writes_5 hr

/-- The buffers stretch 6 writes: one per line, the line's own result. -/
abbrev wr6 : List (Ref sig .tc) :=
  [main_c_2]

theorem writes_6 : (hostOps1_6 : List (HloOp τ sig (Elt F))).Forall fun op =>
    op.writes ⊆ (wr6.map (Proc.devRef (τ := τ) .tc)).toFinset := by
  simp only [hostOps1_6, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 6 does not write is as it was. -/
theorem frame_6 (V : Valuation τ sig (Elt F)) (r : Ref sig .tc) (hr : r ∉ wr6) :
    StableHlo.after hostOps1_6 V (Proc.devRef .tc r) = V (Proc.devRef .tc r) :=
  StableHlo.after_of_writes_sub _ V writes_6 hr

/-- The buffers stretch 7 writes: one per line, the line's own result. -/
abbrev wr7 : List (Ref sig .tc) :=
  [main_call3_v0, main_call3_c, main_call3_v1, main_call3_c_0, main_call3_v2, main_call3_v3,
   main_call3_v4, main_call3_c_1, main_call3_v5, main_call3_v6, main_call3_c_2, main_call3_v7,
   main_call3_v8, main_call3_c_3, main_call3_v9, main_call3_v10, main_call3_v11, main_call3_v12,
   main_call3_v13, main_call3_v14, main_v6]

theorem writes_7 : (hostOps1_7 : List (HloOp τ sig (Elt F))).Forall fun op =>
    op.writes ⊆ (wr7.map (Proc.devRef (τ := τ) .tc)).toFinset := by
  simp only [hostOps1_7, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 7 does not write is as it was. -/
theorem frame_7 (V : Valuation τ sig (Elt F)) (r : Ref sig .tc) (hr : r ∉ wr7) :
    StableHlo.after hostOps1_7 V (Proc.devRef .tc r) = V (Proc.devRef .tc r) :=
  StableHlo.after_of_writes_sub _ V writes_7 hr

/-- The buffers stretch 8 writes: one per line, the line's own result. -/
abbrev wr8 : List (Ref sig .tc) :=
  [main_v7, main_v8, main_v9, main_v10, main_v11, main_v12, main_cst, main_v13]

theorem writes_8 : (hostOps1_8 : List (HloOp τ sig (Elt F))).Forall fun op =>
    op.writes ⊆ (wr8.map (Proc.devRef (τ := τ) .tc)).toFinset := by
  simp only [hostOps1_8, List.Forall, StableHlo.nullary_writes, StableHlo.unary_writes, StableHlo.binary_writes,
    StableHlo.ternary_writes, StableHlo.reshape_writes, StableHlo.nary_writes]
  repeat' apply And.intro
  all_goals exact Finset.singleton_subset_iff.mpr (List.mem_toFinset.mpr (List.mem_map.mpr ⟨_, by decide, rfl⟩))

/-- A buffer stretch 8 does not write is as it was. -/
theorem frame_8 (V : Valuation τ sig (Elt F)) (r : Ref sig .tc) (hr : r ∉ wr8) :
    StableHlo.after hostOps1_8 V (Proc.devRef .tc r) = V (Proc.devRef .tc r) :=
  StableHlo.after_of_writes_sub _ V writes_8 hr

/-! ## What each stretch leaves at the buffers later lines read, from any contents before it -/

/-- The reshape of the region's result. -/
theorem s0_v1 (V : Valuation τ sig (Elt F)) :
    StableHlo.after hostOps1 V (Proc.devRef .tc main_v1)
      = (shapeCast S32x3136x768 (V (Proc.devRef .tc main_v0)) shapeCasts_S32x4x784x768_S32x3136x768 :
          (⟨S32x3136x768, .f32⟩ : BufTy).Contents (Elt F)) := by
  simp only [hostOps1]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

/-- The patch index. -/
theorem s0_v2 (V : Valuation τ sig (Elt F)) :
    StableHlo.after hostOps1 V (Proc.devRef .tc main_v2) = (iotaInDim S3136 32 0 : IVec S3136 32) := by
  simp only [hostOps1]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

theorem s0_c (V : Valuation τ sig (Elt F)) :
    StableHlo.after hostOps1 V (Proc.devRef .tc main_c) = (constantI S_ 32 784#32 : IVec S_ 32) := by
  simp only [hostOps1]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

/-- The first floor division: of the patch index, by the scalar before it. -/
theorem s1_v3 (V : Valuation τ sig (Elt F)) :
    StableHlo.after hostOps1_1 V (Proc.devRef .tc main_v3)
      = Cert.Pos.floorDiv bcast_S_S3136 (V (Proc.devRef .tc main_v2)) (V (Proc.devRef .tc main_c)) := by
  simp only [hostOps1_1]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

theorem s2_c0 (V : Valuation τ sig (Elt F)) :
    StableHlo.after hostOps1_2 V (Proc.devRef .tc main_c_0) = (constantI S_ 32 784#32 : IVec S_ 32) := by
  simp only [hostOps1_2]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

set_option maxHeartbeats 2000000 in
/-- The first remainder. -/
theorem s3_v4 (V : Valuation τ sig (Elt F)) :
    StableHlo.after hostOps1_3 V (Proc.devRef .tc main_v4)
      = Cert.Pos.remainder bcast_S_S3136 (V (Proc.devRef .tc main_v2)) (V (Proc.devRef .tc main_c_0)) := by
  simp only [hostOps1_3]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

theorem s4_c1 (V : Valuation τ sig (Elt F)) :
    StableHlo.after hostOps1_4 V (Proc.devRef .tc main_c_1) = (constantI S_ 32 28#32 : IVec S_ 32) := by
  simp only [hostOps1_4]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

/-- The second floor division: of the first remainder. -/
theorem s5_v5 (V : Valuation τ sig (Elt F)) :
    StableHlo.after hostOps1_5 V (Proc.devRef .tc main_v5)
      = Cert.Pos.floorDiv bcast_S_S3136 (V (Proc.devRef .tc main_v4)) (V (Proc.devRef .tc main_c_1)) := by
  simp only [hostOps1_5]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

theorem s6_c2 (V : Valuation τ sig (Elt F)) :
    StableHlo.after hostOps1_6 V (Proc.devRef .tc main_c_2) = (constantI S_ 32 28#32 : IVec S_ 32) := by
  simp only [hostOps1_6]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']

set_option maxHeartbeats 2000000 in
/-- The second remainder. -/
theorem s7_v6 (V : Valuation τ sig (Elt F)) :
    StableHlo.after hostOps1_7 V (Proc.devRef .tc main_v6)
      = Cert.Pos.remainder bcast_S_S3136 (V (Proc.devRef .tc main_v4)) (V (Proc.devRef .tc main_c_2)) := by
  simp only [hostOps1_7]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

/-- The three columns side by side, then over the batch. -/
theorem s8_v12 (V : Valuation τ sig (Elt F)) :
    StableHlo.after hostOps1_8 V (Proc.devRef .tc main_v12)
      = (broadcastInDim S32x3136x3 ![0, 1, 2] bcast_S1x3136x3_S32x3136x3_0_1_2
          (broadcastInDim S1x3136x3 ![1, 2] bcast_S3136x3_S1x3136x3_1_2
            (concatenate S3136x3 1
              [⟨S3136x1, (broadcastInDim S3136x1 ![0] bcast_S3136_S3136x1_0 (V (Proc.devRef .tc main_v3)) : IVec S3136x1 32)⟩,
               ⟨S3136x1, (broadcastInDim S3136x1 ![0] bcast_S3136_S3136x1_0 (V (Proc.devRef .tc main_v5)) : IVec S3136x1 32)⟩,
               ⟨S3136x1, (broadcastInDim S3136x1 ![0] bcast_S3136_S3136x1_0 (V (Proc.devRef .tc main_v6)) : IVec S3136x1 32)⟩]
              concatenates_S3136x1_S3136x1_S3136x1_S3136x3_d1 : IVec S3136x3 32) : IVec S1x3136x3 32) :
          (⟨S32x3136x3, .i32⟩ : BufTy).Contents (Elt F)) := by
  simp only [hostOps1_8]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

theorem s8_v13 (V : Valuation τ sig (Elt F)) :
    StableHlo.after hostOps1_8 V (Proc.devRef .tc main_v13) = Cert.Pos.ones (F := F) bcast_S_S32x3136 := by
  simp only [hostOps1_8]
  simp (disch := decide) only [StableHlo.after_cons, StableHlo.after_nil,
    StableHlo.nullary_result', StableHlo.unary_result', StableHlo.binary_result', StableHlo.ternary_result',
    StableHlo.reshape_result', StableHlo.nary3_result',
    StableHlo.nullary_result_ne', StableHlo.unary_result_ne', StableHlo.binary_result_ne', StableHlo.ternary_result_ne',
    StableHlo.reshape_result_ne', StableHlo.nary_result_ne']
  rfl

/-! ## The whole tail -/

/-- The stretches run one after another. -/
theorem after_tail (W : Valuation τ sig (Elt F)) :
    StableHlo.after (tailOps (F := F)).flatten W
      = StableHlo.after hostOps1_8 (StableHlo.after hostOps1_7 (StableHlo.after hostOps1_6 (StableHlo.after hostOps1_5
          (StableHlo.after hostOps1_4 (StableHlo.after hostOps1_3 (StableHlo.after hostOps1_2 (StableHlo.after hostOps1_1
            (StableHlo.after hostOps1 W)))))))) := by
  simp only [tailOps, List.flatten_cons, List.flatten_nil, List.append_nil, StableHlo.after_append]

/-- The first result: the region's result array reshaped, whatever the later lines do. -/
theorem tail_v1 (W : Valuation τ sig (Elt F)) :
    StableHlo.after (tailOps (F := F)).flatten W (Proc.devRef .tc main_v1)
      = (shapeCast S32x3136x768 (W (Proc.devRef .tc main_v0)) shapeCasts_S32x4x784x768_S32x3136x768 :
          (⟨S32x3136x768, .f32⟩ : BufTy).Contents (Elt F)) := by
  rw [after_tail, frame_8 _ _ (by decide), frame_7 _ _ (by decide), frame_6 _ _ (by decide), frame_5 _ _ (by decide),
    frame_4 _ _ (by decide), frame_3 _ _ (by decide), frame_2 _ _ (by decide), frame_1 _ _ (by decide), s0_v1]

/-- The second result: the positions. -/
theorem tail_v12 (W : Valuation τ sig (Elt F)) :
    StableHlo.after (tailOps (F := F)).flatten W (Proc.devRef .tc main_v12)
      = Cert.Pos.positions (F := F) bcast_S_S3136 bcast_S3136_S3136x1_0 concatenates_S3136x1_S3136x1_S3136x1_S3136x3_d1
          bcast_S3136x3_S1x3136x3_1_2 bcast_S1x3136x3_S32x3136x3_0_1_2 := by
  rw [after_tail, s8_v12,
    s7_v6, frame_7 _ main_v3 (by decide), frame_7 _ main_v5 (by decide),
    s6_c2, frame_6 _ main_v3 (by decide), frame_6 _ main_v5 (by decide), frame_6 _ main_v4 (by decide),
    s5_v5, frame_5 _ main_v3 (by decide), frame_5 _ main_v4 (by decide),
    s4_c1, frame_4 _ main_v3 (by decide), frame_4 _ main_v4 (by decide),
    s3_v4, frame_3 _ main_v3 (by decide),
    s2_c0, frame_2 _ main_v3 (by decide), frame_2 _ main_v2 (by decide),
    s1_v3, frame_1 _ main_v2 (by decide),
    s0_v2, s0_c]
  rfl

/-- The third result: the mask of ones. -/
theorem tail_v13 (W : Valuation τ sig (Elt F)) :
    StableHlo.after (tailOps (F := F)).flatten W (Proc.devRef .tc main_v13) = Cert.Pos.ones (F := F) bcast_S_S32x3136 := by
  rw [after_tail, s8_v13]

/-- The argument array is as the region left it. -/
theorem tail_arg0 (W : Valuation τ sig (Elt F)) :
    StableHlo.after (tailOps (F := F)).flatten W (Proc.devRef .tc main_arg0) = W (Proc.devRef .tc main_arg0) := by
  rw [after_tail, frame_8 _ _ (by decide), frame_7 _ _ (by decide), frame_6 _ _ (by decide), frame_5 _ _ (by decide),
    frame_4 _ _ (by decide), frame_3 _ _ (by decide), frame_2 _ _ (by decide), frame_1 _ _ (by decide),
    frame_0 _ _ (by decide)]

end Cert.KernelIdeal.Hand

end
-- ==== Proof.LibRank7.lean ====
/-
  RANK-7 INDICES BY COORDINATES. `ix7` builds a rank-7 index from its seven coordinates, `eq_ix7` says every rank-7
  index is of that form, and `Shape.rowMajor_val_seven` spells its row-major position as one sum of products: rank 7 of
  the library's `ix0` … `ix6` and `Shape.rowMajor_val_one` … `rowMajor_val_six`. General in the seven extents.
  A file opens the namespace: `open Idealize.ShloMosaic.ValueIdx`.
-/
import Idealize.ShloMosaic.Lib.ValueIdxRank6

namespace Idealize.ShloMosaic

/-- Rank 7: the row-major position as one sum of products (the last axis varies fastest). -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with
    | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end ValueIdx

end Idealize.ShloMosaic
-- ==== Proof.Relayout.lean ====
/-
  THE INDEX MATHEMATICS OF THE PATCH RELAYOUT, for any element type and importing no program.

  An image batch `x[b, t, c, y, z]` of shape [32, 4, 3, 448, 448] is cut into 16 × 16 patches: frame `t`, patch row `r`,
  patch column `col`, and inside a patch channel `c`, row `i`, column `j`. The patch tensor is
      `G3 x [b, t * 784 + r * 28 + col, c * 256 + i * 16 + j] = x[b, t, c, 16 r + i, 16 col + j]`.
  Three ways of producing it are related here:
  * `patches_eq`: a cast to [32, 4, 3, 28, 16, 28, 16], the transpose (0, 1, 3, 5, 2, 4, 6) and a cast to [32, 3136, 768];
  * `reshape_G4`: the same tensor with the frame on its own axis, `G4 x` of shape [32, 4, 784, 768], cast to [32, 3136, 768];
  * `rowPatch_apply`: one strip of sixteen image rows [1, 1, 3, 16, 448] turned into the 28 patches [1, 1, 28, 768] it holds.
  Every shape fact is an explicit hypothesis, so that a program's own facts can be passed.
-/
import Idealize.ShloMosaic.PureOps
import Idealize.ShloMosaic.Lib.ValueIdx
import Idealize.ShloMosaic.Lib.ValueIdxRank6
import Idealize.ShloMosaic.Lib.ValueLayout
import Idealize.ShloMosaic.Lib.Pipeline.Value
import proofs.«119378_j75084618268853_1_alg».proof.Proof.LibRank7

noncomputable section

namespace Cert.Relayout

open Idealize.ShloMosaic Idealize.ShloMosaic.ValueIdx

/-! ## The shapes -/

abbrev S32x4x3x448x448 : Shape := ⟨5, ![32, 4, 3, 448, 448]⟩
abbrev S32x4x3x28x16x28x16 : Shape := ⟨7, ![32, 4, 3, 28, 16, 28, 16]⟩
abbrev S32x4x28x28x3x16x16 : Shape := ⟨7, ![32, 4, 28, 28, 3, 16, 16]⟩
abbrev S32x3136x768 : Shape := ⟨3, ![32, 3136, 768]⟩
abbrev S32x4x784x768 : Shape := ⟨4, ![32, 4, 784, 768]⟩
abbrev S1x1x3x16x448 : Shape := ⟨5, ![1, 1, 3, 16, 448]⟩
abbrev S3x16x448 : Shape := ⟨3, ![3, 16, 448]⟩
abbrev S3x16x28x16 : Shape := ⟨4, ![3, 16, 28, 16]⟩
abbrev S28x3x16x16 : Shape := ⟨4, ![28, 3, 16, 16]⟩
abbrev S28x768 : Shape := ⟨2, ![28, 768]⟩
abbrev S1x1x28x768 : Shape := ⟨4, ![1, 1, 28, 768]⟩

variable {α : Type}

/-! ## The patch tensor -/

/-- THE PATCH TENSOR: `G3 x [b, t * 784 + r * 28 + col, c * 256 + i * 16 + j] = x[b, t, c, 16 r + i, 16 col + j]`:
    patch `n` lies in frame `n / 784`, patch row `(n % 784) / 28` and patch column `n % 28`; position `q` of a patch is
    channel `q / 256`, row `(q % 256) / 16` and column `q % 16`. -/
def G3 (x : S32x4x3x448x448.Idx → α) : S32x3136x768.Idx → α := fun j =>
  x (ix5 (j 0 : Fin 32)
    (⟨(j 1).val / 784, by have h : (j 1).val < 3136 := (j 1).isLt; omega⟩ : Fin 4)
    (⟨(j 2).val / 256, by have h : (j 2).val < 768 := (j 2).isLt; omega⟩ : Fin 3)
    (⟨16 * (((j 1).val % 784) / 28) + ((j 2).val % 256) / 16, by omega⟩ : Fin 448)
    (⟨16 * ((j 1).val % 28) + (j 2).val % 16, by omega⟩ : Fin 448))

/-- The patch tensor read at coordinates. -/
theorem G3_apply (x : S32x4x3x448x448.Idx → α) (b : Fin 32) (n : Fin 3136) (q : Fin 768) :
    G3 x (ix3 b n q)
      = x (ix5 b (⟨n.val / 784, by omega⟩ : Fin 4) (⟨q.val / 256, by omega⟩ : Fin 3)
          (⟨16 * ((n.val % 784) / 28) + (q.val % 256) / 16, by omega⟩ : Fin 448)
          (⟨16 * (n.val % 28) + q.val % 16, by omega⟩ : Fin 448)) := rfl

/-! ## Cast, transpose, cast -/

/-- The cast of the image batch to [32, 4, 3, 28, 16, 28, 16] splits each of the two image axes into (patch, offset):
    at `(b, t, c, r, i, col, j)` it reads `x[b, t, c, 16 r + i, 16 col + j]`. -/
theorem split_apply (x : S32x4x3x448x448.Idx → α) (h1 : S32x4x3x448x448.ShapeCasts S32x4x3x28x16x28x16)
    (b : Fin 32) (t : Fin 4) (c : Fin 3) (r : Fin 28) (i : Fin 16) (col : Fin 28) (j : Fin 16) :
    shapeCast S32x4x3x28x16x28x16 x h1 (ix7 b t c r i col j)
      = x (ix5 b t c (⟨16 * r.val + i.val, by omega⟩ : Fin 448) (⟨16 * col.val + j.val, by omega⟩ : Fin 448)) :=
  shapeCast_apply x h1 _ _ (by
    rw [Shape.rowMajor_val_five, Shape.rowMajor_val_seven]
    show (((b.val * 4 + t.val) * 3 + c.val) * 448 + (16 * r.val + i.val)) * 448 + (16 * col.val + j.val)
      = (((((b.val * 4 + t.val) * 3 + c.val) * 28 + r.val) * 16 + i.val) * 28 + col.val) * 16 + j.val
    omega)

/-- The transpose (0, 1, 3, 5, 2, 4, 6) brings the two patch axes in front of the channel and the two offsets: at
    `(b, t, r, col, c, i, j)` it reads the operand at `(b, t, c, r, i, col, j)`. -/
theorem swap_apply (y : S32x4x3x28x16x28x16.Idx → α)
    (h2 : S32x4x3x28x16x28x16.Transposes [0, 1, 3, 5, 2, 4, 6] S32x4x28x28x3x16x16)
    (b : Fin 32) (t : Fin 4) (r : Fin 28) (col : Fin 28) (c : Fin 3) (i : Fin 16) (j : Fin 16) :
    transpose S32x4x28x28x3x16x16 [0, 1, 3, 5, 2, 4, 6] y h2 (ix7 b t r col c i j) = y (ix7 b t c r i col j) :=
  transpose_apply _ y h2 _ _ fun a => match a with
    | ⟨0, _⟩ => rfl | ⟨1, _⟩ => rfl | ⟨2, _⟩ => rfl | ⟨3, _⟩ => rfl | ⟨4, _⟩ => rfl | ⟨5, _⟩ => rfl | ⟨6, _⟩ => rfl

/-- The cast of [32, 4, 28, 28, 3, 16, 16] to [32, 3136, 768] merges (frame, patch row, patch column) into the patch
    number and (channel, row, column) into the position inside the patch: at `(b, n, q)` it reads the operand at
    `(b, n / 784, (n % 784) / 28, n % 28, q / 256, (q % 256) / 16, q % 16)`. -/
theorem merge_apply (z : S32x4x28x28x3x16x16.Idx → α) (h3 : S32x4x28x28x3x16x16.ShapeCasts S32x3136x768)
    (b : Fin 32) (n : Fin 3136) (q : Fin 768) :
    shapeCast S32x3136x768 z h3 (ix3 b n q)
      = z (ix7 b (⟨n.val / 784, by omega⟩ : Fin 4) (⟨(n.val % 784) / 28, by omega⟩ : Fin 28) (⟨n.val % 28, by omega⟩ : Fin 28)
          (⟨q.val / 256, by omega⟩ : Fin 3) (⟨(q.val % 256) / 16, by omega⟩ : Fin 16) (⟨q.val % 16, by omega⟩ : Fin 16)) :=
  shapeCast_apply z h3 _ _ (by
    rw [Shape.rowMajor_val_seven, Shape.rowMajor_val_three]
    show (((((b.val * 4 + n.val / 784) * 28 + (n.val % 784) / 28) * 28 + n.val % 28) * 3 + q.val / 256) * 16
          + (q.val % 256) / 16) * 16 + q.val % 16
      = (b.val * 3136 + n.val) * 768 + q.val
    omega)

/-- CAST, TRANSPOSE, CAST IS THE PATCH TENSOR. -/
theorem patches_eq (x : S32x4x3x448x448.Idx → α) (h1 : S32x4x3x448x448.ShapeCasts S32x4x3x28x16x28x16)
    (h2 : S32x4x3x28x16x28x16.Transposes [0, 1, 3, 5, 2, 4, 6] S32x4x28x28x3x16x16)
    (h3 : S32x4x28x28x3x16x16.ShapeCasts S32x3136x768) :
    shapeCast S32x3136x768
        (transpose S32x4x28x28x3x16x16 [0, 1, 3, 5, 2, 4, 6] (shapeCast S32x4x3x28x16x28x16 x h1) h2) h3
      = G3 x := by
  funext j
  obtain ⟨b, n, q, rfl⟩ : ∃ (b : Fin 32) (n : Fin 3136) (q : Fin 768), j = ix3 b n q := ⟨j 0, j 1, j 2, eq_ix3 j⟩
  rw [merge_apply, swap_apply, split_apply, G3_apply]

/-! ## The frame on its own axis -/

/-- The patch tensor with the frame on its own axis:
    `G4 x [b, t, r * 28 + col, c * 256 + i * 16 + j] = x[b, t, c, 16 r + i, 16 col + j]`. -/
def G4 (x : S32x4x3x448x448.Idx → α) : S32x4x784x768.Idx → α := fun j =>
  x (ix5 (j 0 : Fin 32) (j 1 : Fin 4)
    (⟨(j 3).val / 256, by have h : (j 3).val < 768 := (j 3).isLt; omega⟩ : Fin 3)
    (⟨16 * ((j 2).val / 28) + ((j 3).val % 256) / 16, by have h : (j 2).val < 784 := (j 2).isLt; omega⟩ : Fin 448)
    (⟨16 * ((j 2).val % 28) + (j 3).val % 16, by omega⟩ : Fin 448))

/-- That tensor read at coordinates. -/
theorem G4_apply (x : S32x4x3x448x448.Idx → α) (b : Fin 32) (t : Fin 4) (p : Fin 784) (q : Fin 768) :
    G4 x (ix4 b t p q)
      = x (ix5 b t (⟨q.val / 256, by omega⟩ : Fin 3) (⟨16 * (p.val / 28) + (q.val % 256) / 16, by omega⟩ : Fin 448)
          (⟨16 * (p.val % 28) + q.val % 16, by omega⟩ : Fin 448)) := rfl

/-- Merging the frame axis into the patch axis gives the patch tensor: patch `n` is patch `n % 784` of frame `n / 784`,
    and `(n % 784) % 28 = n % 28` as 28 divides 784. -/
theorem reshape_G4 (x : S32x4x3x448x448.Idx → α) (h : S32x4x784x768.ShapeCasts S32x3136x768) :
    shapeCast S32x3136x768 (G4 x) h = G3 x := by
  funext j
  obtain ⟨b, n, q, rfl⟩ : ∃ (b : Fin 32) (n : Fin 3136) (q : Fin 768), j = ix3 b n q := ⟨j 0, j 1, j 2, eq_ix3 j⟩
  refine (shapeCast_apply (G4 x) h (ix3 b n q)
    (ix4 b (⟨n.val / 784, by omega⟩ : Fin 4) (⟨n.val % 784, by omega⟩ : Fin 784) q) ?_).trans ?_
  · rw [Shape.rowMajor_val_four, Shape.rowMajor_val_three]
    show ((b.val * 4 + n.val / 784) * 784 + n.val % 784) * 768 + q.val = (b.val * 3136 + n.val) * 768 + q.val
    omega
  · rw [G4_apply, G3_apply]
    have e : n.val % 784 % 28 = n.val % 28 := by omega
    simp only [e]

/-! ## One strip of sixteen image rows -/

/-- A strip [1, 1, 3, 16, 448] of sixteen image rows, all three channels, turned into the 28 patches it holds: the unit
    axes dropped, the 448 columns split into (patch column, offset), the patch column brought to the front, then
    (channel, row, offset) merged into the position inside the patch and the unit axes put back. -/
def rowPatch (v : S1x1x3x16x448.Idx → α) (h1 : S1x1x3x16x448.ShapeCasts S3x16x448) (h2 : S3x16x448.ShapeCasts S3x16x28x16)
    (h3 : S3x16x28x16.Transposes [2, 0, 1, 3] S28x3x16x16) (h4 : S28x3x16x16.ShapeCasts S28x768)
    (h5 : S28x768.ShapeCasts S1x1x28x768) : S1x1x28x768.Idx → α :=
  shapeCast S1x1x28x768
    (shapeCast S28x768
      (transpose S28x3x16x16 [2, 0, 1, 3] (shapeCast S3x16x28x16 (shapeCast S3x16x448 v h1) h2) h3) h4) h5

/-- Patch `col` of the strip holds, at position `q`, the strip's element at channel `q / 256`, row `(q % 256) / 16` and
    column `16 col + q % 16`. -/
theorem rowPatch_apply (v : S1x1x3x16x448.Idx → α) (h1 : S1x1x3x16x448.ShapeCasts S3x16x448)
    (h2 : S3x16x448.ShapeCasts S3x16x28x16) (h3 : S3x16x28x16.Transposes [2, 0, 1, 3] S28x3x16x16)
    (h4 : S28x3x16x16.ShapeCasts S28x768) (h5 : S28x768.ShapeCasts S1x1x28x768) (col : Fin 28) (q : Fin 768) :
    rowPatch v h1 h2 h3 h4 h5 (ix4 (0 : Fin 1) (0 : Fin 1) col q)
      = v (ix5 (0 : Fin 1) (0 : Fin 1) (⟨q.val / 256, by omega⟩ : Fin 3) (⟨(q.val % 256) / 16, by omega⟩ : Fin 16)
          (⟨16 * col.val + q.val % 16, by omega⟩ : Fin 448)) := by
  unfold rowPatch
  -- the unit axes put back: position (0, 0, col, q) is position (col, q)
  refine (shapeCast_apply _ h5 _ (ix2 col q) ?_).trans ?_
  · rw [Shape.rowMajor_val_two, Shape.rowMajor_val_four]
    show col.val * 768 + q.val = ((0 * 1 + 0) * 28 + col.val) * 768 + q.val
    omega
  -- position q of a patch is (channel, row, offset)
  refine (shapeCast_apply _ h4 _
    (ix4 col (⟨q.val / 256, by omega⟩ : Fin 3) (⟨(q.val % 256) / 16, by omega⟩ : Fin 16) (⟨q.val % 16, by omega⟩ : Fin 16))
    ?_).trans ?_
  · rw [Shape.rowMajor_val_four, Shape.rowMajor_val_two]
    show ((col.val * 3 + q.val / 256) * 16 + (q.val % 256) / 16) * 16 + q.val % 16 = col.val * 768 + q.val
    omega
  -- the patch column goes back behind channel and row
  refine (transpose_apply _ _ h3 _
    (ix4 (⟨q.val / 256, by omega⟩ : Fin 3) (⟨(q.val % 256) / 16, by omega⟩ : Fin 16) col (⟨q.val % 16, by omega⟩ : Fin 16))
    fun a => match a with | ⟨0, _⟩ => rfl | ⟨1, _⟩ => rfl | ⟨2, _⟩ => rfl | ⟨3, _⟩ => rfl).trans ?_
  -- (patch column, offset) is the image column
  refine (shapeCast_apply _ h2 _
    (ix3 (⟨q.val / 256, by omega⟩ : Fin 3) (⟨(q.val % 256) / 16, by omega⟩ : Fin 16)
      (⟨16 * col.val + q.val % 16, by omega⟩ : Fin 448)) ?_).trans ?_
  · rw [Shape.rowMajor_val_three, Shape.rowMajor_val_four]
    show (q.val / 256 * 16 + (q.val % 256) / 16) * 448 + (16 * col.val + q.val % 16)
      = ((q.val / 256 * 16 + (q.val % 256) / 16) * 28 + col.val) * 16 + q.val % 16
    omega
  -- the unit axes dropped
  refine shapeCast_apply v h1 _ _ ?_
  rw [Shape.rowMajor_val_five, Shape.rowMajor_val_three]
  show (((0 * 1 + 0) * 3 + q.val / 256) * 16 + (q.val % 256) / 16) * 448 + (16 * col.val + q.val % 16)
    = (q.val / 256 * 16 + (q.val % 256) / 16) * 448 + (16 * col.val + q.val % 16)
  omega

end Cert.Relayout

end
-- ==== Proof.ValueKI.lean ====
/-
  What the kernel leaves in its output array, at any float family: the whole array [32,4,784,768] after the run is the
  patch tensor with the frame on its own axis, `Cert.Relayout.G4` of the argument. One grid point (b, t) writes back
  block (b, t, 0, 0); inside the block, row block r of the body's 28 stores holds the 28 patches of image strip r, so the
  block is the patch tensor of the input block; and the 128 blocks tile the array.
-/
import proofs.«119378_j75084618268853_1_alg».proof.Proof.BodyKI
import proofs.«119378_j75084618268853_1_alg».proof.Proof.Relayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Facts₀

variable {F : FTy → Type} [FloatOps F]

/-! ## One block -/

/-- The patch tensor of one input block [1,1,3,448,448]: entry (p, q) of the [784,768] block is channel q / 256, image
    row 16 (p / 28) + (q % 256) / 16, image column 16 (p % 28) + q % 16. -/
def blockPatches (x0 : Vec F S1x1x3x448x448 .f32) : Vec F S1x1x784x768 .f32 := fun y =>
  x0 (ix5 (0 : Fin 1) (0 : Fin 1)
    (⟨(y 3).val / 256, by have h : (y 3).val < 768 := (y 3).isLt; omega⟩ : Fin 3)
    (⟨16 * ((y 2).val / 28) + ((y 3).val % 256) / 16, by have h : (y 2).val < 784 := (y 2).isLt; omega⟩ : Fin 448)
    (⟨16 * ((y 2).val % 28) + (y 3).val % 16, by omega⟩ : Fin 448))

/-- Every payload of the body is the strip-to-patches relayout. -/
abbrev strip (v : Vec F S1x1x3x16x448 .f32) : Vec F S1x1x28x768 .f32 :=
  Cert.Relayout.rowPatch v Facts₀.shapeCasts_S1x1x3x16x448_S3x16x448 Facts₀.shapeCasts_S3x16x448_S3x16x28x16
    Facts₀.transposes_S3x16x28x16_p2_0_1_3_S28x3x16x16 Facts₀.shapeCasts_S28x3x16x16_S28x768 Facts₀.shapeCasts_S28x768_S1x1x28x768

/-- Strip `o` of the input block, re-laid, is rows 28 o … 28 o + 27 of the block's patch tensor. -/
theorem strip_eq (x0 : Vec F S1x1x3x448x448 .f32) (o : ℕ) (ho : o < 28)
    (hin : ∀ a, (![0, 0, 0, 16 * o, 0] : Fin 5 → ℕ) a + S1x1x3x16x448.size a ≤ S1x1x3x448x448.size a)
    (hout : ∀ a, (![0, 0, 28 * o, 0] : Fin 4 → ℕ) a + S1x1x28x768.size a ≤ S1x1x784x768.size a)
    (x : S1x1x28x768.Idx) :
    strip (View.ld x0 (Rect.unit (s := S1x1x3x448x448) ![0, 0, 0, 16 * o, 0] S1x1x3x16x448.size hin)) x
      = blockPatches x0 ((Rect.unit (s := S1x1x784x768) ![0, 0, 28 * o, 0] S1x1x28x768.size hout).emb x) := by
  obtain ⟨u0, u1, col, q, rfl⟩ : ∃ (u0 : Fin 1) (u1 : Fin 1) (col : Fin 28) (q : Fin 768), x = ix4 u0 u1 col q :=
    ⟨x 0, x 1, x 2, x 3, eq_ix4 x⟩
  obtain rfl : u0 = 0 := Subsingleton.elim _ _
  obtain rfl : u1 = 0 := Subsingleton.elim _ _
  refine (Cert.Relayout.rowPatch_apply _ _ _ _ _ _ col q).trans ?_
  show x0 _ = x0 _
  refine congrArg x0 (funext fun a => Fin.ext ?_)
  have hc : col.val < 28 := col.isLt
  have hq : q.val < 768 := q.isLt
  match a with
  | ⟨0, _⟩ => rfl
  | ⟨1, _⟩ => rfl
  | ⟨2, _⟩ => show 0 + 1 * (q.val / 256) = (0 + 1 * q.val) / 256; omega
  | ⟨3, _⟩ => show 16 * o + 1 * ((q.val % 256) / 16) = 16 * ((28 * o + 1 * col.val) / 28) + ((0 + 1 * q.val) % 256) / 16; omega
  | ⟨4, _⟩ => show 0 + 1 * (16 * col.val + q.val % 16) = 16 * ((28 * o + 1 * col.val) % 28) + (0 + 1 * q.val) % 16; omega

/-- What the body leaves in the output block is the patch tensor of the input block. -/
theorem outBlock_eq (x0 : Vec F S1x1x3x448x448 .f32) : outBlock x0 = blockPatches x0 := by
  funext y
  unfold outBlock
  refine View.canon_apply_of_pieces (blockPatches x0) _ ?_ y (outCover _ _ _ _ _ _ _ _ _ _ _ _ _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl
  · intro x; exact strip_eq x0 27 (by decide) Facts₀.inb_S1x1x3x448x448_S1x1x3x16x448_0_0_0_432_0 Facts₀.inb_S1x1x784x768_S1x1x28x768_0_0_756_0 x
  · intro x; exact strip_eq x0 26 (by decide) Facts₀.inb_S1x1x3x448x448_S1x1x3x16x448_0_0_0_416_0 Facts₀.inb_S1x1x784x768_S1x1x28x768_0_0_728_0 x
  · intro x; exact strip_eq x0 25 (by decide) Facts₀.inb_S1x1x3x448x448_S1x1x3x16x448_0_0_0_400_0 Facts₀.inb_S1x1x784x768_S1x1x28x768_0_0_700_0 x
  · intro x; exact strip_eq x0 24 (by decide) Facts₀.inb_S1x1x3x448x448_S1x1x3x16x448_0_0_0_384_0 Facts₀.inb_S1x1x784x768_S1x1x28x768_0_0_672_0 x
  · intro x; exact strip_eq x0 23 (by decide) Facts₀.inb_S1x1x3x448x448_S1x1x3x16x448_0_0_0_368_0 Facts₀.inb_S1x1x784x768_S1x1x28x768_0_0_644_0 x
  · intro x; exact strip_eq x0 22 (by decide) Facts₀.inb_S1x1x3x448x448_S1x1x3x16x448_0_0_0_352_0 Facts₀.inb_S1x1x784x768_S1x1x28x768_0_0_616_0 x
  · intro x; exact strip_eq x0 21 (by decide) Facts₀.inb_S1x1x3x448x448_S1x1x3x16x448_0_0_0_336_0 Facts₀.inb_S1x1x784x768_S1x1x28x768_0_0_588_0 x
  · intro x; exact strip_eq x0 20 (by decide) Facts₀.inb_S1x1x3x448x448_S1x1x3x16x448_0_0_0_320_0 Facts₀.inb_S1x1x784x768_S1x1x28x768_0_0_560_0 x
  · intro x; exact strip_eq x0 19 (by decide) Facts₀.inb_S1x1x3x448x448_S1x1x3x16x448_0_0_0_304_0 Facts₀.inb_S1x1x784x768_S1x1x28x768_0_0_532_0 x
  · intro x; exact strip_eq x0 18 (by decide) Facts₀.inb_S1x1x3x448x448_S1x1x3x16x448_0_0_0_288_0 Facts₀.inb_S1x1x784x768_S1x1x28x768_0_0_504_0 x
  · intro x; exact strip_eq x0 17 (by decide) Facts₀.inb_S1x1x3x448x448_S1x1x3x16x448_0_0_0_272_0 Facts₀.inb_S1x1x784x768_S1x1x28x768_0_0_476_0 x
  · intro x; exact strip_eq x0 16 (by decide) Facts₀.inb_S1x1x3x448x448_S1x1x3x16x448_0_0_0_256_0 Facts₀.inb_S1x1x784x768_S1x1x28x768_0_0_448_0 x
  · intro x; exact strip_eq x0 15 (by decide) Facts₀.inb_S1x1x3x448x448_S1x1x3x16x448_0_0_0_240_0 Facts₀.inb_S1x1x784x768_S1x1x28x768_0_0_420_0 x
  · intro x; exact strip_eq x0 14 (by decide) Facts₀.inb_S1x1x3x448x448_S1x1x3x16x448_0_0_0_224_0 Facts₀.inb_S1x1x784x768_S1x1x28x768_0_0_392_0 x
  · intro x; exact strip_eq x0 13 (by decide) Facts₀.inb_S1x1x3x448x448_S1x1x3x16x448_0_0_0_208_0 Facts₀.inb_S1x1x784x768_S1x1x28x768_0_0_364_0 x
  · intro x; exact strip_eq x0 12 (by decide) Facts₀.inb_S1x1x3x448x448_S1x1x3x16x448_0_0_0_192_0 Facts₀.inb_S1x1x784x768_S1x1x28x768_0_0_336_0 x
  · intro x; exact strip_eq x0 11 (by decide) Facts₀.inb_S1x1x3x448x448_S1x1x3x16x448_0_0_0_176_0 Facts₀.inb_S1x1x784x768_S1x1x28x768_0_0_308_0 x
  · intro x; exact strip_eq x0 10 (by decide) Facts₀.inb_S1x1x3x448x448_S1x1x3x16x448_0_0_0_160_0 Facts₀.inb_S1x1x784x768_S1x1x28x768_0_0_280_0 x
  · intro x; exact strip_eq x0 9 (by decide) Facts₀.inb_S1x1x3x448x448_S1x1x3x16x448_0_0_0_144_0 Facts₀.inb_S1x1x784x768_S1x1x28x768_0_0_252_0 x
  · intro x; exact strip_eq x0 8 (by decide) Facts₀.inb_S1x1x3x448x448_S1x1x3x16x448_0_0_0_128_0 Facts₀.inb_S1x1x784x768_S1x1x28x768_0_0_224_0 x
  · intro x; exact strip_eq x0 7 (by decide) Facts₀.inb_S1x1x3x448x448_S1x1x3x16x448_0_0_0_112_0 Facts₀.inb_S1x1x784x768_S1x1x28x768_0_0_196_0 x
  · intro x; exact strip_eq x0 6 (by decide) Facts₀.inb_S1x1x3x448x448_S1x1x3x16x448_0_0_0_96_0 Facts₀.inb_S1x1x784x768_S1x1x28x768_0_0_168_0 x
  · intro x; exact strip_eq x0 5 (by decide) Facts₀.inb_S1x1x3x448x448_S1x1x3x16x448_0_0_0_80_0 Facts₀.inb_S1x1x784x768_S1x1x28x768_0_0_140_0 x
  · intro x; exact strip_eq x0 4 (by decide) Facts₀.inb_S1x1x3x448x448_S1x1x3x16x448_0_0_0_64_0 Facts₀.inb_S1x1x784x768_S1x1x28x768_0_0_112_0 x
  · intro x; exact strip_eq x0 3 (by decide) Facts₀.inb_S1x1x3x448x448_S1x1x3x16x448_0_0_0_48_0 Facts₀.inb_S1x1x784x768_S1x1x28x768_0_0_84_0 x
  · intro x; exact strip_eq x0 2 (by decide) Facts₀.inb_S1x1x3x448x448_S1x1x3x16x448_0_0_0_32_0 Facts₀.inb_S1x1x784x768_S1x1x28x768_0_0_56_0 x
  · intro x; exact strip_eq x0 1 (by decide) Facts₀.inb_S1x1x3x448x448_S1x1x3x16x448_0_0_0_16_0 Facts₀.inb_S1x1x784x768_S1x1x28x768_0_0_28_0 x
  · intro x; exact strip_eq x0 0 (by decide) Facts₀.inb_S1x1x3x448x448_S1x1x3x16x448_0_0_0_0_0 Facts₀.inb_S1x1x784x768_S1x1x28x768_0_0_0_0 x

end Cert.KernelIdeal.Hand

end
-- ==== Proof.ArrayKI.lean ====
/-
  The kernel's output array after the run, at any float family: the 128 grid points (b, t) each write back block
  (b, t, 0, 0) of the array [32,4,784,768], every block is the patch tensor of the input block (b, t, 0, 0, 0) the point
  read, and the blocks tile the array; so the array ends as the patch tensor, with the frame on its own axis, of the
  argument.
-/
import proofs.«119378_j75084618268853_1_alg».proof.Proof.ValueKI

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Facts₀

variable {F : FTy → Type} [FloatOps F]
variable (m : (ℓ : Loc nD τ sig) → Buf (Elt F) ℓ)

/-! ## The index maps, decided over the grid -/

/-- The input block and the output block of a point share their two leading block indices (batch entry and frame), every
    other block index is zero, and the leading two stay in range. -/
theorem idx_facts : ∀ t : Fin cfg0.N, win0_0.index t (0 : Fin 5) = win0_1.index t (0 : Fin 4)
    ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) < 32 ∧ win0_1.index t (1 : Fin 4) < 4 :=
  (by decide +kernel : ∀ t : Fin grid0.N, _)

/-! ## What a point reads and what it writes back -/

/-- The input block of point `t` is block (b, tt, 0, 0, 0) of the argument: its entry `x` is the argument's entry with
    the point's two leading block indices and `x`'s three trailing coordinates. -/
theorem iblk_apply (c : Dev nD) (t : Fin cfg0.N) (x : S1x1x3x448x448.Idx) (k : S32x4x3x448x448.Idx)
    (h0 : (k 0).val = win0_0.index t 0) (h1 : (k 1).val = win0_0.index t 1) (h2 : (k 2).val = (x 2).val)
    (h3 : (k 3).val = (x 3).val) (h4 : (k 4).val = (x 4).val) :
    (iblk m c 0 t : Vec F S1x1x3x448x448 .f32) x
      = (m ((c : Thread nD τ).loc main_arg0) : S32x4x3x448x448.Idx → Elt F .f32) k := by
  obtain ⟨e0, e1, e2, e3, e4, -⟩ := idx_facts t
  unfold iblk
  rw [View.read_apply]
  show V m c main_arg0 _ = m (c.tc.loc main_arg0) _
  rw [V_eq]
  refine congrArg (m ((c : Thread nD τ).loc main_arg0) : S32x4x3x448x448.Idx → Elt F .f32) (funext fun a => Fin.ext ?_)
  have hx0 : (x 0).val < 1 := (x 0).isLt
  have hx1 : (x 1).val < 1 := (x 1).isLt
  match a with
  | ⟨0, _⟩ => show win0_0.index t (0 : Fin 5) * 1 + 1 * (x 0).val = (k 0).val; omega
  | ⟨1, _⟩ => show win0_0.index t (1 : Fin 5) * 1 + 1 * (x 1).val = (k 1).val; omega
  | ⟨2, _⟩ => show win0_0.index t (2 : Fin 5) * 3 + 1 * (x 2).val = (k 2).val; omega
  | ⟨3, _⟩ => show win0_0.index t (3 : Fin 5) * 448 + 1 * (x 3).val = (k 3).val; omega
  | ⟨4, _⟩ => show win0_0.index t (4 : Fin 5) * 448 + 1 * (x 4).val = (k 4).val; omega

/-- WHAT POINT `t` WRITES BACK is its block of the patch tensor of the argument: the block's entry (0, 0, p, q) is the
    patch-tensor entry of the input block, which is block (b, tt, 0, 0, 0) of the argument, and the output block is block
    (b, tt, 0, 0) of the array. -/
theorem flushed_eq (c : Dev nD) (t : Fin cfg0.N) :
    (dats m 0 c).flushed 1 t
      = ((cfg0.win 1).blk t).view.read (Elt F)
          (Cert.Relayout.G4 (m ((c : Thread nD τ).loc main_arg0) : S32x4x3x448x448.Idx → Elt F .f32)) := by
  show (cfg0.win 1).cut (grid0.coords t) ((dats m 0 c).after 1 t) = _
  rw [after_out, outBlock_eq]
  funext y
  obtain ⟨e0, e1, e2, e3, e4, e5, e6, e7, e8⟩ := idx_facts t
  have hy0 : (y 0).val < 1 := (y 0).isLt
  have hy1 : (y 1).val < 1 := (y 1).isLt
  have hy2 : (y 2).val < 784 := (y 2).isLt
  have hy3 : (y 3).val < 768 := (y 3).isLt
  show blockPatches (iblk m c 0 t) ((cfg0.win 1).xinj (grid0.coords t) y)
    = Cert.Relayout.G4 (m ((c : Thread nD τ).loc main_arg0) : S32x4x3x448x448.Idx → Elt F .f32)
        (((cfg0.win 1).blk t).view.emb y)
  unfold blockPatches
  refine (iblk_apply m c t _
    (ix5 (⟨win0_1.index t (0 : Fin 4), e7⟩ : Fin 32) (⟨win0_1.index t (1 : Fin 4), e8⟩ : Fin 4)
      (⟨(y 3).val / 256, by omega⟩ : Fin 3)
      (⟨16 * ((y 2).val / 28) + ((y 3).val % 256) / 16, by omega⟩ : Fin 448)
      (⟨16 * ((y 2).val % 28) + (y 3).val % 16, by omega⟩ : Fin 448)) e0.symm e1.symm rfl rfl rfl).trans ?_
  unfold Cert.Relayout.G4
  refine congrArg (m ((c : Thread nD τ).loc main_arg0) : S32x4x3x448x448.Idx → Elt F .f32) (funext fun a => Fin.ext ?_)
  match a with
  | ⟨0, _⟩ => show win0_1.index t (0 : Fin 4) = win0_1.index t (0 : Fin 4) * 1 + 1 * (y 0).val; omega
  | ⟨1, _⟩ => show win0_1.index t (1 : Fin 4) = win0_1.index t (1 : Fin 4) * 1 + 1 * (y 1).val; omega
  | ⟨2, _⟩ => show (y 3).val / 256 = (win0_1.index t (3 : Fin 4) * 768 + 1 * (y 3).val) / 256; omega
  | ⟨3, _⟩ =>
    show 16 * ((y 2).val / 28) + ((y 3).val % 256) / 16
      = 16 * ((win0_1.index t (2 : Fin 4) * 784 + 1 * (y 2).val) / 28)
        + ((win0_1.index t (3 : Fin 4) * 768 + 1 * (y 3).val) % 256) / 16
    omega
  | ⟨4, _⟩ =>
    show 16 * ((y 2).val % 28) + (y 3).val % 16
      = 16 * ((win0_1.index t (2 : Fin 4) * 784 + 1 * (y 2).val) % 28)
        + (win0_1.index t (3 : Fin 4) * 768 + 1 * (y 3).val) % 16
    omega

/-! ## The blocks tile the array -/

/-- Every (batch entry, frame) is some point's output block. -/
theorem idx_onto : ∀ (b : Fin 32) (tt : Fin 4), ∃ t : Fin cfg0.N, win0_1.index t = ![b.val, tt.val, 0, 0] :=
  (by decide +kernel : ∀ (b : Fin 32) (tt : Fin 4), ∃ t : Fin grid0.N, win0_1.index t = ![b.val, tt.val, 0, 0])

/-- An index of the array is in point `t`'s output block iff each coordinate is in the block's range on its axis. -/
theorem mem_blk (t : Fin cfg0.N) (i : S32x4x784x768.Idx) :
    i ∈ ((cfg0.win 1).blk t).view.set
      ↔ ∀ a : Fin 4, win0_1.index t a * S1x1x784x768.size a ≤ (i a).val
          ∧ (i a).val < win0_1.index t a * S1x1x784x768.size a + S1x1x784x768.size a := by
  show i ∈ ((View.whole main_v0).slice (win0_1.rect t)).set ↔ _
  rw [View.set_slice_whole, Rect.mem_set_unit]
  exact Iff.rfl

/-- THE BLOCKS TILE THE ARRAY: index (b, tt, p, q) lies in the block of the point whose block index is (b, tt, 0, 0). -/
theorem cover (i : S32x4x784x768.Idx) :
    ∃ t : Fin cfg0.N, (cfg0.win 1).flush t = true ∧ i ∈ ((cfg0.win 1).blk t).view.set := by
  have hi0 : (i 0).val < 32 := (i 0).isLt
  have hi1 : (i 1).val < 4 := (i 1).isLt
  have hi2 : (i 2).val < 784 := (i 2).isLt
  have hi3 : (i 3).val < 768 := (i 3).isLt
  obtain ⟨t, ht⟩ := idx_onto ⟨(i 0).val, hi0⟩ ⟨(i 1).val, hi1⟩
  have q0 : win0_1.index t (0 : Fin 4) = (i 0).val := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 1 ≤ (i 1).val ∧ (i 1).val < win0_1.index t (1 : Fin 4) * 1 + 1
    omega
  | ⟨2, _⟩ =>
    show win0_1.index t (2 : Fin 4) * 784 ≤ (i 2).val ∧ (i 2).val < win0_1.index t (2 : Fin 4) * 784 + 784
    omega
  | ⟨3, _⟩ =>
    show win0_1.index t (3 : Fin 4) * 768 ≤ (i 3).val ∧ (i 3).val < win0_1.index t (3 : Fin 4) * 768 + 768
    omega

/-- THE OUTPUT ARRAY AFTER THE RUN is the patch tensor, with the frame on its own axis, of the argument. -/
theorem final_out (c : Dev nD) :
    (dats m 0 c).arrAt 1 cfg0.N = Cert.Relayout.G4 (m ((c : Thread nD τ).loc main_arg0)) :=
  (dats m 0 c).arrAt_eq_of_cover 1 _ (fun t _ => flushed_eq m c t) cover

end Cert.KernelIdeal.Hand

end
-- ==== Proof.ResultsKI.lean ====
/-
  What the kernel program's three results hold after its run, at any float family: the patch tensor of the argument
  (the kernel's output array, then the host's merge of the frame axis into the patch axis), the patch positions and
  the all-ones mask (integer index arithmetic and a broadcast, the same for every input), the argument unchanged.
-/
import proofs.«119378_j75084618268853_1_alg».proof.Proof.RunKI
import proofs.«119378_j75084618268853_1_alg».proof.Proof.TailKI
import proofs.«119378_j75084618268853_1_alg».proof.Proof.ArrayKI

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- The contents at the region's exit: the two staged arrays at what the proof data computes, the rest as launched. -/
abbrev exitVal (c : Dev nD) : Valuation τ sig (Elt F) :=
  Pipeline.withArrays (cfgs 0).spec c (V0 m c) fun w => (dats m 0 c).arrAt w (cfgs 0).N

theorem exit_out (c : Dev nD) : exitVal m c (Proc.devRef .tc main_v0) = (dats m 0 c).arrAt 1 cfg0.N :=
  Pipeline.withArrays_arr spec0 launch0.win.arr_inj c _ _ 1

/-- The first result: the host merges the frame axis of the kernel's output array into the patch axis. -/
theorem patches_result (c : Dev nD) :
    Pipeline.afterTail₀ cfgs (dats m) 0 (V0 m) tailOps c main_v1 = Cert.Relayout.G3 (m ((c : Thread nD τ).loc main_arg0)) := by
  unfold Pipeline.afterTail₀
  refine (tail_v1 (exitVal m c)).trans ?_
  rw [exit_out, final_out]
  exact Cert.Relayout.reshape_G4 _ _

theorem positions_result (c : Dev nD) :
    Pipeline.afterTail₀ cfgs (dats m) 0 (V0 m) tailOps c main_v12
      = Cert.Pos.positions (F := F) Facts₀.bcast_S_S3136 Facts₀.bcast_S3136_S3136x1_0 Facts₀.concatenates_S3136x1_S3136x1_S3136x1_S3136x3_d1
          Facts₀.bcast_S3136x3_S1x3136x3_1_2 Facts₀.bcast_S1x3136x3_S32x3136x3_0_1_2 := by
  unfold Pipeline.afterTail₀
  exact tail_v12 (exitVal m c)

theorem ones_result (c : Dev nD) :
    Pipeline.afterTail₀ cfgs (dats m) 0 (V0 m) tailOps c main_v13 = Cert.Pos.ones (F := F) Facts₀.bcast_S_S32x3136 := by
  unfold Pipeline.afterTail₀
  exact tail_v13 (exitVal m c)

/-- The run, read at the three results and the argument. -/
theorem run_values : θ_run defs (onTc (τ := τ) (main (F := F))) ⟨m, fun _ => 0, ρ⟩ (fun r => ∀ c : Dev nD,
      r.2.mem ((c.tc : Thread nD τ).loc main_v1) = Cert.Relayout.G3 (m ((c.tc : Thread nD τ).loc main_arg0))
    ∧ r.2.mem ((c.tc : Thread nD τ).loc main_v12)
        = Cert.Pos.positions (F := F) Facts₀.bcast_S_S3136 Facts₀.bcast_S3136_S3136x1_0 Facts₀.concatenates_S3136x1_S3136x1_S3136x1_S3136x3_d1
            Facts₀.bcast_S3136x3_S1x3136x3_1_2 Facts₀.bcast_S1x3136x3_S32x3136x3_0_1_2
    ∧ r.2.mem ((c.tc : Thread nD τ).loc main_v13) = Cert.Pos.ones (F := F) Facts₀.bcast_S_S32x3136
    ∧ r.2.mem ((c.tc : Thread nD τ).loc main_arg0) = m ((c.tc : Thread nD τ).loc main_arg0)) :=
  (θ_run defs _ _).mono (fun _ h c =>
    ⟨((h c).2 main_v1 (Pipeline.mem_restRefs_of main_v1 (by decide) (by decide))).trans (patches_result m c),
     ((h c).2 main_v12 (Pipeline.mem_restRefs_of main_v12 (by decide) (by decide))).trans (positions_result m c),
     ((h c).2 main_v13 (Pipeline.mem_restRefs_of main_v13 (by decide) (by decide))).trans (ones_result m c),
     ((h c).1 0).trans (((dats m 0 c).arrAt_in 0 rfl _).trans ((A_eq m c 0).trans (V_eq m c main_arg0)))⟩)
    (run_main m ρ)

end Cert.KernelIdeal.Hand

end
-- ==== Proof.RefRun.lean ====
import proofs.«119378_j75084618268853_1_alg».proof.Proof.Gen.ReferenceIdeal
import Idealize.ShloMosaic.Lib.StableHlo.Run
import proofs.«119378_j75084618268853_1_alg».proof.Proof.Positions

noncomputable section

namespace Cert.ReferenceIdeal.Hand

open Cert.ReferenceIdeal Cert.ReferenceIdeal.Facts₀ Idealize.ShloMosaic Idealize.ShloMosaic.TcCoe Idealize.SL.Sem
open Idealize.ShloMosaic.StableHlo

variable {F : FTy → Type} [FloatOps F]

/-- The reference's @main as one straight line, every call replaced by its callee's operations over that call's
    buffers: the argument regrouped into 16 × 16 tiles, the tile axes moved behind the channel axis, and flattened;
    the patch counter `0 … 3135`; its floored quotient by 784 (seventeen operations: the truncated quotient, less
    one where the signs differ and the remainder is not zero); its floored remainder by 784 (twenty-one: the
    truncated remainder, plus the divisor where it is not zero and its sign is not the divisor's); that remainder's
    floored quotient and remainder by 28; the three columns set side by side and repeated over the batch; and the
    constant one spread over batch and patch. -/
abbrev ops : List (HloOp τ sig (Elt F)) :=
  [ reshape main_arg0 main_v0 rfl shapeCasts_S32x4x3x448x448_S32x4x3x28x16x28x16,
    unary main_v0 main_v1 ((transpose S32x4x28x28x3x16x16 [0, 1, 3, 5, 2, 4, 6] · transposes_S32x4x3x28x16x28x16_S32x4x28x28x3x16x16_0_1_3_5_2_4_6) : (⟨S32x4x3x28x16x28x16, .f32⟩ : BufTy).Contents (Elt F) → (⟨S32x4x28x28x3x16x16, .f32⟩ : BufTy).Contents (Elt F)),
    reshape main_v1 main_v2 rfl shapeCasts_S32x4x28x28x3x16x16_S32x3136x768,
    nullary main_v3 (iotaInDim S3136 32 0),
    nullary main_c (constantI S_ 32 784#32),
    TRef.unary (.of main_c : TRef sig ⟨S_, .i32⟩) main_call0.v0 id,
    TRef.unary main_call0.v0 main_call0.v1 (broadcastInDim S3136 ![] bcast_S_S3136),
    TRef.binary (.of main_v3 : TRef sig ⟨S3136, .i32⟩) main_call0.v1 main_call0.v2 Host.divsi,
    TRef.unary (.of main_v3 : TRef sig ⟨S3136, .i32⟩) main_call0.v3 signi,
    TRef.unary main_call0.v0 main_call0.v4 signi,
    TRef.unary main_call0.v4 main_call0.v5 (broadcastInDim S3136 ![] bcast_S_S3136),
    TRef.binary main_call0.v3 main_call0.v5 main_call0.v6 (cmpi .ne),
    TRef.unary main_call0.v0 main_call0.v7 (broadcastInDim S3136 ![] bcast_S_S3136),
    TRef.binary (.of main_v3 : TRef sig ⟨S3136, .i32⟩) main_call0.v7 main_call0.v8 Host.remsi,
    TRef.nullary main_call0.c (constantI S_ 32 0#32),
    TRef.unary main_call0.c main_call0.v9 (broadcastInDim S3136 ![] bcast_S_S3136),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S3136 ![] bcast_S_S3136),
    TRef.binary main_call0.v2 main_call0.v12 main_call0.v13 subi,
    TRef.ternary main_call0.v11 main_call0.v13 main_call0.v2 main_call0.call0.v0 select,
    nullary main_c_0 (constantI S_ 32 784#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S3136 ![] bcast_S_S3136),
    TRef.binary (.of main_v3 : TRef sig ⟨S3136, .i32⟩) main_call1.v3 main_call1.v4 Host.remsi,
    TRef.nullary main_call1.c_1 (constantI S_ 32 0#32),
    TRef.unary main_call1.c_1 main_call1.v5 (broadcastInDim S3136 ![] bcast_S_S3136),
    TRef.binary main_call1.v4 main_call1.v5 main_call1.v6 (cmpi .ne),
    TRef.nullary main_call1.c_2 (constantI S_ 32 0#32),
    TRef.unary main_call1.c_2 main_call1.v7 (broadcastInDim S3136 ![] bcast_S_S3136),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S3136 ![] bcast_S_S3136),
    TRef.binary main_call1.v8 main_call1.v10 main_call1.v11 (cmpi .ne),
    TRef.binary main_call1.v11 main_call1.v6 main_call1.v12 andi,
    TRef.unary main_call1.call0.v0 main_call1.v13 (broadcastInDim S3136 ![] bcast_S_S3136),
    TRef.binary main_call1.v4 main_call1.v13 main_call1.v14 addi,
    TRef.ternary main_call1.v12 main_call1.v14 main_call1.v4 main_call1.v15 select,
    nullary main_c_1 (constantI S_ 32 28#32),
    TRef.unary (.of main_c_1 : TRef sig ⟨S_, .i32⟩) main_call2.v0 id,
    TRef.unary main_call2.v0 main_call2.v1 (broadcastInDim S3136 ![] bcast_S_S3136),
    TRef.binary (.of main_v5 : TRef sig ⟨S3136, .i32⟩) main_call2.v1 main_call2.v2 Host.divsi,
    TRef.unary (.of main_v5 : TRef sig ⟨S3136, .i32⟩) main_call2.v3 signi,
    TRef.unary main_call2.v0 main_call2.v4 signi,
    TRef.unary main_call2.v4 main_call2.v5 (broadcastInDim S3136 ![] bcast_S_S3136),
    TRef.binary main_call2.v3 main_call2.v5 main_call2.v6 (cmpi .ne),
    TRef.unary main_call2.v0 main_call2.v7 (broadcastInDim S3136 ![] bcast_S_S3136),
    TRef.binary (.of main_v5 : TRef sig ⟨S3136, .i32⟩) main_call2.v7 main_call2.v8 Host.remsi,
    TRef.nullary main_call2.c (constantI S_ 32 0#32),
    TRef.unary main_call2.c main_call2.v9 (broadcastInDim S3136 ![] bcast_S_S3136),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S3136 ![] bcast_S_S3136),
    TRef.binary main_call2.v2 main_call2.v12 main_call2.v13 subi,
    TRef.ternary main_call2.v11 main_call2.v13 main_call2.v2 main_call2.call0.v0 select,
    nullary main_c_2 (constantI S_ 32 28#32),
    TRef.unary (.of main_c_2 : TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S3136 ![] bcast_S_S3136),
    TRef.binary (.of main_v5 : TRef sig ⟨S3136, .i32⟩) main_call3.v3 main_call3.v4 Host.remsi,
    TRef.nullary main_call3.c_1 (constantI S_ 32 0#32),
    TRef.unary main_call3.c_1 main_call3.v5 (broadcastInDim S3136 ![] bcast_S_S3136),
    TRef.binary main_call3.v4 main_call3.v5 main_call3.v6 (cmpi .ne),
    TRef.nullary main_call3.c_2 (constantI S_ 32 0#32),
    TRef.unary main_call3.c_2 main_call3.v7 (broadcastInDim S3136 ![] bcast_S_S3136),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S3136 ![] bcast_S_S3136),
    TRef.binary main_call3.v8 main_call3.v10 main_call3.v11 (cmpi .ne),
    TRef.binary main_call3.v11 main_call3.v6 main_call3.v12 andi,
    TRef.unary main_call3.call0.v0 main_call3.v13 (broadcastInDim S3136 ![] bcast_S_S3136),
    TRef.binary main_call3.v4 main_call3.v13 main_call3.v14 addi,
    TRef.ternary main_call3.v12 main_call3.v14 main_call3.v4 main_call3.v15 select,
    unary main_v4 main_v8 (broadcastInDim S3136x1 ![0] bcast_S3136_S3136x1_0 : (⟨S3136, .i32⟩ : BufTy).Contents (Elt F) → (⟨S3136x1, .i32⟩ : BufTy).Contents (Elt F)),
    unary main_v6 main_v9 (broadcastInDim S3136x1 ![0] bcast_S3136_S3136x1_0 : (⟨S3136, .i32⟩ : BufTy).Contents (Elt F) → (⟨S3136x1, .i32⟩ : BufTy).Contents (Elt F)),
    unary main_v7 main_v10 (broadcastInDim S3136x1 ![0] bcast_S3136_S3136x1_0 : (⟨S3136, .i32⟩ : BufTy).Contents (Elt F) → (⟨S3136x1, .i32⟩ : BufTy).Contents (Elt F)),
    nary ![main_v8, main_v9, main_v10] main_v11 (fun u => concatenate S3136x3 1 [⟨S3136x1, u 0⟩, ⟨S3136x1, u 1⟩, ⟨S3136x1, u 2⟩] concatenates_S3136x1_S3136x1_S3136x1_S3136x3_d1),
    unary main_v11 main_v12 (broadcastInDim S1x3136x3 ![1, 2] bcast_S3136x3_S1x3136x3_1_2 : (⟨S3136x3, .i32⟩ : BufTy).Contents (Elt F) → (⟨S1x3136x3, .i32⟩ : BufTy).Contents (Elt F)),
    unary main_v12 main_v13 (broadcastInDim S32x3136x3 ![0, 1, 2] bcast_S1x3136x3_S32x3136x3_0_1_2 : (⟨S1x3136x3, .i32⟩ : BufTy).Contents (Elt F) → (⟨S32x3136x3, .i32⟩ : BufTy).Contents (Elt F)),
    nullary main_cst (constant S_ .f32 0x3F800000#32),
    unary main_cst main_v14 (broadcastInDim S32x3136 ![] bcast_S_S32x3136 : (⟨S_, .f32⟩ : BufTy).Contents (Elt F) → (⟨S32x3136, .f32⟩ : BufTy).Contents (Elt F)) ]

set_option maxRecDepth 4096 in
set_option maxHeartbeats 2000000 in
/-- @main is that line: the callees' definitions unfolded at their calls, both sides are one chain of steps once
    sequencing is re-associated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., nullary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    unary_bufs_sub .., unary_bufs_sub .., unary_bufs_sub .., nary_bufs_sub .., unary_bufs_sub .., unary_bufs_sub ..,
    nullary_bufs_sub .., unary_bufs_sub ..⟩

/-- From any memory with zero counters every weakly fair execution of @main terminates, each buffer of each
    device at the line's fold over the device's launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- The patches of a batch of frames: the two image axes each cut into 28 tiles of 16, the tile axes moved in front
    of the channel, and frames × tiles and channel × pixels each flattened: entry `(b, t·784 + r·28 + q, c·256 + i·16 + j)`
    is the argument's `(b, t, c, 16 r + i, 16 q + j)`. -/
def patches (x : (⟨S32x4x3x448x448, .f32⟩ : BufTy).Contents (Elt F)) : (⟨S32x3136x768, .f32⟩ : BufTy).Contents (Elt F) :=
  shapeCast S32x3136x768
    (transpose S32x4x28x28x3x16x16 [0, 1, 3, 5, 2, 4, 6]
      (shapeCast S32x4x3x28x16x28x16 x shapeCasts_S32x4x3x448x448_S32x4x3x28x16x28x16)
      transposes_S32x4x3x28x16x28x16_S32x4x28x28x3x16x16_0_1_3_5_2_4_6)
    shapeCasts_S32x4x28x28x3x16x16_S32x3136x768

/-- The three columns set side by side: the concatenation's result holds the concatenation of what the three
    column buffers hold, each read at its own reference. -/
theorem cat_result (hxs hy) (W : Valuation τ sig (Elt F)) :
    (nary (τ := τ) ![main_v8, main_v9, main_v10] main_v11
        (fun u => concatenate S3136x3 1 [⟨S3136x1, u 0⟩, ⟨S3136x1, u 1⟩, ⟨S3136x1, u 2⟩]
          concatenates_S3136x1_S3136x1_S3136x1_S3136x3_d1) hxs hy).result W (no_index (Proc.devRef .tc main_v11))
      = concatenate S3136x3 1
          [⟨S3136x1, W (Proc.devRef .tc main_v8)⟩, ⟨S3136x1, W (Proc.devRef .tc main_v9)⟩,
            ⟨S3136x1, W (Proc.devRef .tc main_v10)⟩]
          concatenates_S3136x1_S3136x1_S3136x1_S3136x3_d1 :=
  (nary_result _ _ _ hxs hy W).trans rfl

set_option maxRecDepth 8192 in
set_option maxHeartbeats 2000000 in
/-- The line leaves the patches of the argument at the first result. -/
theorem v2_eq (V : Valuation τ sig (Elt F)) :
    after ops V (Proc.devRef .tc main_v2) = patches (V (Proc.devRef .tc main_arg0)) := by
  after_results_simp
  rfl

set_option maxRecDepth 8192 in
set_option maxHeartbeats 2000000 in
/-- The line leaves the argument as it was. -/
theorem arg0_eq (V : Valuation τ sig (Elt F)) :
    after ops V (Proc.devRef .tc main_arg0) = V (Proc.devRef .tc main_arg0) := by
  after_results_simp

set_option maxRecDepth 8192 in
set_option maxHeartbeats 2000000 in
/-- The line leaves the constant one at every batch and patch at the third result. -/
theorem v14_eq (V : Valuation τ sig (Elt F)) :
    after ops V (Proc.devRef .tc main_v14) = Cert.Pos.ones (F := F) bcast_S_S32x3136 := by
  after_results_simp
  rfl

/-- The positions tensor from its three columns: whatever three column vectors equal the frame, row and column
    columns, setting them side by side and repeating over the batch gives the positions. -/
theorem positions_of {A B C : IVec S3136x1 32}
    (hA : A = broadcastInDim S3136x1 ![0] bcast_S3136_S3136x1_0
      (Cert.Pos.floorDiv bcast_S_S3136 (iotaInDim S3136 32 0) (constantI S_ 32 784#32)))
    (hB : B = broadcastInDim S3136x1 ![0] bcast_S3136_S3136x1_0
      (Cert.Pos.floorDiv bcast_S_S3136
        (Cert.Pos.remainder bcast_S_S3136 (iotaInDim S3136 32 0) (constantI S_ 32 784#32)) (constantI S_ 32 28#32)))
    (hC : C = broadcastInDim S3136x1 ![0] bcast_S3136_S3136x1_0
      (Cert.Pos.remainder bcast_S_S3136
        (Cert.Pos.remainder bcast_S_S3136 (iotaInDim S3136 32 0) (constantI S_ 32 784#32)) (constantI S_ 32 28#32))) :
    (broadcastInDim S32x3136x3 ![0, 1, 2] bcast_S1x3136x3_S32x3136x3_0_1_2
        (broadcastInDim S1x3136x3 ![1, 2] bcast_S3136x3_S1x3136x3_1_2
          (concatenate S3136x3 1 [⟨S3136x1, A⟩, ⟨S3136x1, B⟩, ⟨S3136x1, C⟩]
            concatenates_S3136x1_S3136x1_S3136x1_S3136x3_d1)) : (⟨S32x3136x3, .i32⟩ : BufTy).Contents (Elt F))
      = Cert.Pos.positions (F := F) bcast_S_S3136 bcast_S3136_S3136x1_0 concatenates_S3136x1_S3136x1_S3136x1_S3136x3_d1
          bcast_S3136x3_S1x3136x3_1_2 bcast_S1x3136x3_S32x3136x3_0_1_2 := by
  subst hA hB hC
  rfl

set_option maxRecDepth 8192 in
set_option maxHeartbeats 4000000 in
/-- The line leaves the patch positions at the second result: whatever the memory held, frame, row and column
    of each patch are computed from the counter alone. The last three operations are read first, down to the
    three column buffers; each column is then read down to the counter. -/
theorem v13_eq (V : Valuation τ sig (Elt F)) :
    after ops V (Proc.devRef .tc main_v13)
      = Cert.Pos.positions (F := F) bcast_S_S3136 bcast_S3136_S3136x1_0 concatenates_S3136x1_S3136x1_S3136x1_S3136x3_d1
          bcast_S3136x3_S1x3136x3_1_2 bcast_S1x3136x3_S32x3136x3_0_1_2 := by
  simp (disch := decide) only [after_cons, after_nil, nullary_result', unary_result', cat_result,
    nullary_result_ne', unary_result_ne', nary_result_ne']
  refine positions_of ?_ ?_ ?_
  · simp (disch := decide) only [nullary_result', unary_result', binary_result', ternary_result',
      nullary_result_ne', unary_result_ne', binary_result_ne', ternary_result_ne', reshape_result_ne']
    rfl
  · simp (disch := decide) only [nullary_result', unary_result', binary_result', ternary_result',
      nullary_result_ne', unary_result_ne', binary_result_ne', ternary_result_ne', reshape_result_ne']
    rfl
  · simp (disch := decide) only [nullary_result', unary_result', binary_result', ternary_result',
      nullary_result_ne', unary_result_ne', binary_result_ne', ternary_result_ne', reshape_result_ne']
    rfl

/-- On every device, for any float values, from any memory with zero counters: every weakly fair execution of
    @main terminates with the patches of the argument at the first result, the patch positions at the second, the
    constant one at the third, and the argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v2) = patches (m ((c.tc : Thread nD τ).loc main_arg0))
    ∧ r.2.mem ((c.tc : Thread nD τ).loc main_v13)
        = Cert.Pos.positions (F := F) bcast_S_S3136 bcast_S3136_S3136x1_0 concatenates_S3136x1_S3136x1_S3136x1_S3136x3_d1
            bcast_S3136x3_S1x3136x3_1_2 bcast_S1x3136x3_S32x3136x3_0_1_2
    ∧ r.2.mem ((c.tc : Thread nD τ).loc main_v14) = Cert.Pos.ones (F := F) bcast_S_S32x3136
    ∧ r.2.mem ((c.tc : Thread nD τ).loc main_arg0) = m ((c.tc : Thread nD τ).loc main_arg0)) :=
  (θ_run defs _ _).mono
    (fun _ h c => ⟨(h c main_v2).trans (v2_eq _), (h c main_v13).trans (v13_eq _), (h c main_v14).trans (v14_eq _),
      (h c main_arg0).trans (arg0_eq _)⟩)
    (run_after m ρ)

end Cert.ReferenceIdeal.Hand

end
-- ==== Proof.lean ====
/-
  Equivalence over the extended reals of a patch-extraction kernel and its reshape / transpose / reshape reference.

  The kernel turns an image batch x[b, t, c, y, z] of shape [32, 4, 3, 448, 448] into patches of 16 × 16 pixels: one grid
  point per (batch, frame) re-lays its [3, 448, 448] block strip by strip into the [784, 768] block of that frame's 784
  patches, and the host merges the frame axis into the patch axis, so that
      out[b, t * 784 + r * 28 + col, c * 256 + i * 16 + j] = x[b, t, c, 16 r + i, 16 col + j];
  the reference computes the same tensor by a cast to [32, 4, 3, 28, 16, 28, 16], a transpose and a cast. Both programs
  then compute the patch positions (frame, row, column of each patch, by the same integer divisions and remainders of an
  iota) and an all-ones mask. The relayout moves elements and computes nothing, so no law of the extended reals and no
  finiteness of the input is used: both sides are the one function `Cert.Relayout.G3` of the argument, the positions are
  one integer tensor (`Cert.Pos.positions`) and the mask one constant (`Cert.Pos.ones`).

  The three frames: each kernel program runs its one region (the body's 28 loads and 28 tiling stores at every grid
  point) and the ninety host lines after it, none of which writes a staged array; the reference is a straight line of
  host operations. The idealization rewrote nothing, so `preserves` is trivial.
-/
import proofs.«119378_j75084618268853_1_alg».proof.Defs
import proofs.«119378_j75084618268853_1_alg».proof.Proof.RunK
import proofs.«119378_j75084618268853_1_alg».proof.Proof.ResultsKI
import proofs.«119378_j75084618268853_1_alg».proof.Proof.RefRun
import proofs.«119378_j75084618268853_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernel_ideal : Cert.frame_KernelIdeal := fun m ρ _ => Cert.KernelIdeal.Hand.frame (F := Ideal) m ρ

theorem frame_reference : Cert.frame_ReferenceIdeal := fun m ρ _ =>
  (θ_run Cert.ReferenceIdeal.defs _ _).mono (fun _ h c => (h c).2.2.2) (Cert.ReferenceIdeal.Hand.run (F := Ideal) m ρ)

theorem preserves : Cert.preserves_Kernel_KernelIdeal := trivial

/-- Both programs end with the patch tensor of the (agreeing) argument, the positions and the mask. -/
theorem algebraic : Cert.algebraic_KernelIdeal_ReferenceIdeal := by
  intro m ρ m' ρ' _ hagree
  refine ⟨_, _, _, Cert.KernelIdeal.Hand.run_values (F := Ideal) m ρ, ?_⟩
  refine (θ_run Cert.ReferenceIdeal.defs _ _).mono (fun _ h c => ?_) (Cert.ReferenceIdeal.Hand.run (F := Ideal) m' ρ')
  obtain ⟨h1, h2, h3, h4⟩ := h c
  refine ⟨h1.trans ?_, h2.trans ?_, h3.trans ?_, h4⟩
  · rw [hagree c]
    exact Cert.Relayout.patches_eq _ _ _ _
  · rfl
  · rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
